-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20x9488 : Shape := ⟨3, ![256, 20, 9488]⟩
abbrev S256x18 : Shape := ⟨2, ![256, 18]⟩
abbrev S1 : Shape := ⟨1, ![1]⟩
abbrev S_ : Shape := ⟨0, ![]⟩

class Facts : Prop where
  bcast_S_S256x20x9488 : S_.BroadcastsInDim S256x20x9488 (![] : Fin 0 → Fin S256x20x9488.rank)
  reducesTo_S256x20x9488_S_d0_1_2 : S256x20x9488.ReducesTo [0, 1, 2] S_
  h_S_ : 0 < S_.numel
  bcast_S_S1 : S_.BroadcastsInDim S1 (![] : Fin 0 → Fin S1.rank)
  reducesTo_S1_S_d0 : S1.ReducesTo [0] S_
  bcast_S_S256x18 : S_.BroadcastsInDim S256x18 (![] : Fin 0 → Fin S256x18.rank)
  reducesTo_S256x18_S_d0_1 : S256x18.ReducesTo [0, 1] S_

variable [Facts]

def fn_part1 {F : FTy → Type} [FloatOps F] (main_arg1 : IVec S256x18 32) (main_v13 : IVec S_ 1) (main_v15 : IVec S256x18 1) (main_c_5 : IVec S_ 32) : IVec S_ 1 :=
  let main_v16 : IVec S256x18 32 := broadcastInDim S256x18 ![] bcast_S_S256x18 main_c_5
  let main_v17 : IVec S256x18 1 := cmpi .slt main_arg1 main_v16
  let main_v18 : IVec S256x18 1 := andi main_v15 main_v17
  let main_c_6 : IVec S_ 1 := constantI S_ 1 1#1
  let main_v19 : IVec S_ 1 := (fun x v => Host.reduce IntOp.andi x v reducesTo_S256x18_S_d0_1 h_S_) main_v18 main_c_6
  let main_v20 : IVec S_ 1 := andi main_v13 main_v19
  main_v20

def fn {F : FTy → Type} [FloatOps F] (main_arg0 : FVec F S256x20x9488 .f32) (main_arg1 : IVec S256x18 32) (main_arg2 : FVec F S1 .f32) (main_arg3 : FVec F S1 .f32) : IVec S_ 1 :=
  let main_v0 : FVec F S256x20x9488 .f32 := Host.absf main_arg0
  let main_cst : FVec F S_ .f32 := constant S_ .f32 0x7F800000#32
  let main_v1 : FVec F S256x20x9488 .f32 := broadcastInDim S256x20x9488 ![] bcast_S_S256x20x9488 main_cst
  let main_v2 : IVec S256x20x9488 1 := cmpf .olt main_v0 main_v1
  let main_c : IVec S_ 1 := constantI S_ 1 1#1
  let main_v3 : IVec S_ 1 := (fun x v => Host.reduce IntOp.andi x v reducesTo_S256x20x9488_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S256x18 32 := broadcastInDim S256x18 ![] bcast_S_S256x18 main_c_4
  let main_v15 : IVec S256x18 1 := cmpi .sge main_arg1 main_v14
  let main_c_5 : IVec S_ 32 := constantI S_ 32 9488#32
  fn_part1 (F := F) main_arg1 main_v13 main_v15 main_c_5
-- ==== Kernel.lean ====
abbrev S256x20x9488 : Shape := ⟨3, ![256, 20, 9488]⟩
abbrev S256x18 : Shape := ⟨2, ![256, 18]⟩
abbrev S1 : Shape := ⟨1, ![1]⟩
abbrev S_ : Shape := ⟨0, ![]⟩
abbrev S256x1 : Shape := ⟨2, ![256, 1]⟩
abbrev S256x19 : Shape := ⟨2, ![256, 19]⟩
abbrev S256x20 : Shape := ⟨2, ![256, 20]⟩
abbrev S256x20x1 : Shape := ⟨3, ![256, 20, 1]⟩
abbrev S16x1x1 : Shape := ⟨3, ![16, 1, 1]⟩
abbrev S16x20x9488 : Shape := ⟨3, ![16, 20, 9488]⟩
abbrev S16x20x1 : Shape := ⟨3, ![16, 20, 1]⟩
abbrev S1x1x1 : Shape := ⟨3, ![1, 1, 1]⟩
abbrev S1x1x9488 : Shape := ⟨3, ![1, 1, 9488]⟩
abbrev S16x8x9488 : Shape := ⟨3, ![16, 8, 9488]⟩
abbrev S16x8x1 : Shape := ⟨3, ![16, 8, 1]⟩
abbrev S16x8 : Shape := ⟨2, ![16, 8]⟩
abbrev S16x1 : Shape := ⟨2, ![16, 1]⟩
abbrev S16x4x9488 : Shape := ⟨3, ![16, 4, 9488]⟩
abbrev S16x4x1 : Shape := ⟨3, ![16, 4, 1]⟩
abbrev S16x4 : Shape := ⟨2, ![16, 4]⟩
abbrev S1x1 : Shape := ⟨2, ![1, 1]⟩

abbrev nBuf : Space → Nat
  | .hbm => 39
  | .vmem => 8
  | .smem => 0
  | _ => 0

abbrev bufTy : (tb : Table) → Fin (tcTables nBuf tb) → BufTy
  | .hbm, ⟨0, _⟩ => ⟨S256x20x9488, .f32⟩
  | .hbm, ⟨1, _⟩ => ⟨S256x18, .i32⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S256x1, .i32⟩
  | .hbm, ⟨6, _⟩ => ⟨S256x19, .i32⟩
  | .hbm, ⟨7, _⟩ => ⟨S_, .i32⟩
  | .hbm, ⟨8, _⟩ => ⟨S256x19, .i32⟩
  | .hbm, ⟨9, _⟩ => ⟨S256x19, .i1⟩
  | .hbm, ⟨10, _⟩ => ⟨S256x19, .i32⟩
  | .hbm, ⟨11, _⟩ => ⟨S_, .i32⟩
  | .hbm, ⟨12, _⟩ => ⟨S_, .i32⟩
  | .hbm, ⟨13, _⟩ => ⟨S256x19, .i32⟩
  | .hbm, ⟨14, _⟩ => ⟨S_, .i32⟩
  | .hbm, ⟨15, _⟩ => ⟨S256x19, .i32⟩
  | .hbm, ⟨16, _⟩ => ⟨S256x19, .i1⟩
  | .hbm, ⟨17, _⟩ => ⟨S256x19, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S256x1, .i32⟩
  | .hbm, ⟨22, _⟩ => ⟨S256x20, .i32⟩
  | .hbm, ⟨23, _⟩ => ⟨S_, .f32⟩
  | .hbm, ⟨24, _⟩ => ⟨S256x1, .f32⟩
  | .hbm, ⟨25, _⟩ => ⟨S256x20, .f32⟩
  | .hbm, ⟨26, _⟩ => ⟨S256x20x1, .i32⟩
  | .hbm, ⟨27, _⟩ => ⟨S256x20x1, .f32⟩
  | .hbm, ⟨28, _⟩ => ⟨S16x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S16x20x9488, .f32⟩
  | .local _ .vmem, ⟨1, _⟩ => ⟨S16x20x9488, .f32⟩
  | .local _ .vmem, ⟨2, _⟩ => ⟨S16x20x1, .i32⟩
  | .local _ .vmem, ⟨3, _⟩ => ⟨S16x20x1, .i32⟩
  | .local _ .vmem, ⟨4, _⟩ => ⟨S16x20x1, .f32⟩
  | .local _ .vmem, ⟨5, _⟩ => ⟨S16x20x1, .f32⟩
  | .local _ .vmem, ⟨6, _⟩ => ⟨S1x1x1, .f32⟩
  | .local _ .vmem, ⟨7, _⟩ => ⟨S1x1x1, .f32⟩
  | _, _ => ⟨S256x20x9488, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_call0_c : Ref sig .tc := ⟨.hbm, 11, rfl⟩
abbrev main_call0_call0_v0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x20x9488 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x20x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x20x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256x1 : S_.BroadcastsInDim S256x1 (![] : Fin 0 → Fin S256x1.rank)
  concatenates_S256x18_S256x1_S256x19_d1 : Shape.Concatenates [S256x18, S256x1] S256x19 1
  bcast_S_S256x19 : S_.BroadcastsInDim S256x19 (![] : Fin 0 → Fin S256x19.rank)
  natLt_1_32 : 1 < 32
  bcast_S_S_ : S_.BroadcastsInDim S_ (![] : Fin 0 → Fin S_.rank)
  reduceWindows_S256x19_S256x19_w1s1p0_0_w19s1p18_0 : S256x19.ReduceWindows (![1, 19] : Fin 2 → Nat) ![1, 1] ![0, 18] ![0, 0] S256x19
  h_S_ : 0 < S_.numel
  reducesTo_S256x19_S_d0_1 : S256x19.ReducesTo [0, 1] S_
  concatenates_S256x1_S256x19_S256x20_d1 : Shape.Concatenates [S256x1, S256x19] S256x20 1
  bcast_S256x20_S256x20x1_0_1 : S256x20.BroadcastsInDim S256x20x1 (![0, 1] : Fin 2 → Fin S256x20x1.rank)
  iota_S1x1x9488_d2_w32 : S1x1x9488.Iotas .tc 32 [2]
  inb_S16x20x9488_S16x8x9488_0_0_0 : ∀ a, (![0, 0, 0] : Fin 3 → Nat) a + S16x8x9488.size a ≤ S16x20x9488.size a
  h_S16x8x9488 : 0 < S16x8x9488.numel
  inb_S16x20x1_S16x8x1_0_0_0 : ∀ a, (![0, 0, 0] : Fin 3 → Nat) a + S16x8x1.size a ≤ S16x20x1.size a
  h_S16x8x1 : 0 < S16x8x1.numel
  shapeCasts_S16x8x1_S16x8x1 : S16x8x1.ShapeCasts S16x8x1
  broadcasts_S1x1x9488_S16x8x9488 : S1x1x9488.Broadcasts S16x8x9488
  broadcasts_S16x8x1_S16x8x9488 : S16x8x1.Broadcasts S16x8x9488
  reduces_S16x8x9488_S16x8 : S16x8x9488.Reduces [2] S16x8
  shapeCasts_S16x8_S16x8x1 : S16x8.ShapeCasts S16x8x1
  reduces_S16x8x1_S16x1 : S16x8x1.Reduces [1] S16x1
  shapeCasts_S16x1_S16x1x1 : S16x1.ShapeCasts S16x1x1
  inb_S16x20x9488_S16x8x9488_0_8_0 : ∀ a, (![0, 8, 0] : Fin 3 → Nat) a + S16x8x9488.size a ≤ S16x20x9488.size a
  inb_S16x20x1_S16x8x1_0_8_0 : ∀ a, (![0, 8, 0] : Fin 3 → Nat) a + S16x8x1.size a ≤ S16x20x1.size a
  inb_S16x20x9488_S16x4x9488_0_16_0 : ∀ a, (![0, 16, 0] : Fin 3 → Nat) a + S16x4x9488.size a ≤ S16x20x9488.size a
  h_S16x4x9488 : 0 < S16x4x9488.numel
  inb_S16x20x1_S16x4x1_0_16_0 : ∀ a, (![0, 16, 0] : Fin 3 → Nat) a + S16x4x1.size a ≤ S16x20x1.size a
  h_S16x4x1 : 0 < S16x4x1.numel
  shapeCasts_S16x4x1_S16x4x1 : S16x4x1.ShapeCasts S16x4x1
  broadcasts_S1x1x9488_S16x4x9488 : S1x1x9488.Broadcasts S16x4x9488
  broadcasts_S16x4x1_S16x4x9488 : S16x4x1.Broadcasts S16x4x9488
  reduces_S16x4x9488_S16x4 : S16x4x9488.Reduces [2] S16x4
  shapeCasts_S16x4_S16x4x1 : S16x4.ShapeCasts S16x4x1
  reduces_S16x4x1_S16x1 : S16x4x1.Reduces [1] S16x1
  reduces_S16x1x1_S1x1 : S16x1x1.Reduces [0] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x20x9488.size a ≤ S256x20x9488.size a
  hwx0_0 : ∀ i : grid0.Coords, EltTy.bits .f32 = 32 ∨ (Rect.block (s := S256x20x9488) S16x20x9488.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x20x1.size a ≤ S256x20x1.size a
  hwx0_1 : ∀ i : grid0.Coords, EltTy.bits .i32 = 32 ∨ (Rect.block (s := S256x20x1) S16x20x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x20x1.size a ≤ S256x20x1.size a
  hwx0_2 : ∀ i : grid0.Coords, EltTy.bits .f32 = 32 ∨ (Rect.block (s := S256x20x1) S16x20x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S16x20x9488.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16x20x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x20x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x20x9488 : Shape := ⟨3, ![256, 20, 9488]⟩
abbrev S256x18 : Shape := ⟨2, ![256, 18]⟩
abbrev S1 : Shape := ⟨1, ![1]⟩
abbrev S_ : Shape := ⟨0, ![]⟩
abbrev S256x1 : Shape := ⟨2, ![256, 1]⟩
abbrev S256x19 : Shape := ⟨2, ![256, 19]⟩
abbrev S256x19x9488 : Shape := ⟨3, ![256, 19, 9488]⟩
abbrev S256x19x1 : Shape := ⟨3, ![256, 19, 1]⟩
abbrev S256x19x1x1 : Shape := ⟨4, ![256, 19, 1, 1]⟩
abbrev S1x1x1x1 : Shape := ⟨4, ![1, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S256x20x9488, .f32⟩
  | .hbm, ⟨1, _⟩ => ⟨S256x18, .i32⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S256x1, .i32⟩
  | .hbm, ⟨6, _⟩ => ⟨S256x19, .i32⟩
  | .hbm, ⟨7, _⟩ => ⟨S_, .i32⟩
  | .hbm, ⟨8, _⟩ => ⟨S256x19, .i32⟩
  | .hbm, ⟨9, _⟩ => ⟨S256x19, .i1⟩
  | .hbm, ⟨10, _⟩ => ⟨S256x19, .i32⟩
  | .hbm, ⟨11, _⟩ => ⟨S_, .i32⟩
  | .hbm, ⟨12, _⟩ => ⟨S_, .i32⟩
  | .hbm, ⟨13, _⟩ => ⟨S256x19, .i32⟩
  | .hbm, ⟨14, _⟩ => ⟨S_, .i32⟩
  | .hbm, ⟨15, _⟩ => ⟨S256x19, .i32⟩
  | .hbm, ⟨16, _⟩ => ⟨S256x19, .i1⟩
  | .hbm, ⟨17, _⟩ => ⟨S256x19, .f32⟩
  | .hbm, ⟨18, _⟩ => ⟨S256x19x9488, .f32⟩
  | .hbm, ⟨19, _⟩ => ⟨S256x19x1, .i32⟩
  | .hbm, ⟨20, _⟩ => ⟨S_, .i32⟩
  | .hbm, ⟨21, _⟩ => ⟨S256x19x1, .i32⟩
  | .hbm, ⟨22, _⟩ => ⟨S256x19x1, .i1⟩
  | .hbm, ⟨23, _⟩ => ⟨S_, .i32⟩
  | .hbm, ⟨24, _⟩ => ⟨S256x19x1, .i32⟩
  | .hbm, ⟨25, _⟩ => ⟨S256x19x1, .i32⟩
  | .hbm, ⟨26, _⟩ => ⟨S256x19x1, .i32⟩
  | .hbm, ⟨27, _⟩ => ⟨S256x19x1x1, .i32⟩
  | .hbm, ⟨28, _⟩ => ⟨S1, .i32⟩
  | .hbm, ⟨29, _⟩ => ⟨S_, .i32⟩
  | .hbm, ⟨30, _⟩ => ⟨S256x19x1x1, .i32⟩
  | .hbm, ⟨31, _⟩ => ⟨S256x19x1x1, .i1⟩
  | .hbm, ⟨32, _⟩ => ⟨S1x1x1x1, .i32⟩
  | .hbm, ⟨33, _⟩ => ⟨S256x19x1x1, .i32⟩
  | .hbm, ⟨34, _⟩ => ⟨S256x19x1x1, .i1⟩
  | .hbm, ⟨35, _⟩ => ⟨S256x19x1x1, .i1⟩
  | .hbm, ⟨36, _⟩ => ⟨S_, .i1⟩
  | .hbm, ⟨37, _⟩ => ⟨S256x19x1, .i1⟩
  | .hbm, ⟨38, _⟩ => ⟨S256x19x1, .f32⟩
  | .hbm, ⟨39, _⟩ => ⟨S_, .f32⟩
  | .hbm, ⟨40, _⟩ => ⟨S256x19x1, .f32⟩
  | .hbm, ⟨41, _⟩ => ⟨S256x19x1, .f32⟩
  | .hbm, ⟨42, _⟩ => ⟨S256x19, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S256x19, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S256x20x9488, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_call0_c : Ref sig .tc := ⟨.hbm, 11, rfl⟩
abbrev main_call0_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v10 : Ref sig .tc := ⟨.hbm, 41, rfl⟩
abbrev main_v11 : Ref sig .tc := ⟨.hbm, 42, rfl⟩
abbrev main_cst : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩

abbrev nD : Nat := 1
abbrev τ : Topo := Topo.v7x

variable {F : FTy → Type} [FloatOps F]

class Facts₀ : Prop where
  bcast_S_S256x1 : S_.BroadcastsInDim S256x1 (![] : Fin 0 → Fin S256x1.rank)
  concatenates_S256x18_S256x1_S256x19_d1 : Shape.Concatenates [S256x18, S256x1] S256x19 1
  bcast_S_S256x19 : S_.BroadcastsInDim S256x19 (![] : Fin 0 → Fin S256x19.rank)
  natLt_1_32 : 1 < 32
  bcast_S_S_ : S_.BroadcastsInDim S_ (![] : Fin 0 → Fin S_.rank)
  reduceWindows_S256x19_S256x19_w1s1p0_0_w19s1p18_0 : S256x19.ReduceWindows (![1, 19] : Fin 2 → Nat) ![1, 1] ![0, 18] ![0, 0] S256x19
  h_S_ : 0 < S_.numel
  slices_S256x20x9488_S256x19x9488_0_1_0 : S256x20x9488.Slices ![0, 1, 0] S256x19x9488
  bcast_S256x19_S256x19x1_0_1 : S256x19.BroadcastsInDim S256x19x1 (![0, 1] : Fin 2 → Fin S256x19x1.rank)
  bcast_S_S256x19x1 : S_.BroadcastsInDim S256x19x1 (![] : Fin 0 → Fin S256x19x1.rank)
  shapeCasts_S256x19x1_S256x19x1x1 : S256x19x1.ShapeCasts S256x19x1x1
  bcast_S_S256x19x1x1 : S_.BroadcastsInDim S256x19x1x1 (![] : Fin 0 → Fin S256x19x1x1.rank)
  bcast_S1_S1x1x1x1_3 : S1.BroadcastsInDim S1x1x1x1 (![3] : Fin 1 → Fin S1x1x1x1.rank)
  bcast_S1x1x1x1_S256x19x1x1_0_1_2_3 : S1x1x1x1.BroadcastsInDim S256x19x1x1 (![0, 1, 2, 3] : Fin 4 → Fin S256x19x1x1.rank)
  reducesTo_S256x19x1x1_S256x19x1_d3 : S256x19x1x1.ReducesTo [3] S256x19x1
  shapeCasts_S256x19x1_S256x19 : S256x19x1.ShapeCasts S256x19
  reducesTo_S256x19_S_d0_1 : S256x19.ReducesTo [0, 1] S_
  shapeCasts_S1_S_ : S1.ShapeCasts S_
  gather_S256x19x9488_S256x19x1x1_S256x19x1_n_2_01_01_2_3_111_wf : GatherDims.WF S256x19x9488 S256x19x1x1 S256x19x1 [] [2] [0, 1] [2] [0, 1] 3 ![1, 1, 1]

variable [Facts₀]

def gather_S256x19x9488_S256x19x1x1_S256x19x1_n_2_01_01_2_3_111 : GatherDims S256x19x9488 S256x19x1x1 S256x19x1 where
  offsetDims := []
  collapsedSliceDims := [2]
  operandBatchingDims := [0, 1]
  startIndicesBatchingDims := [0, 1]
  startIndexMap := [2]
  indexVectorDim := 3
  sliceSizes := ![1, 1, 1]
  wf := gather_S256x19x9488_S256x19x1x1_S256x19x1_n_2_01_01_2_3_111_wf

class Facts : Prop extends Facts₀ where

variable [Facts]
-- ==== Proof.Spec.lean ====
/-
  The mathematics both programs compute, over literal shapes, with no program imported.

  Inputs: logits x[256, 20, 9488], targets tg[256, 18] (32-bit words), two one-element rewards.
  * tgt19 tg   : the targets extended by a zero column to [256, 19].
  * maskOf tg  : the early-stop mask [256, 19]: 1 where the inclusive count of zero targets along the row is at most 1.
  * pick x b l w : the logit x[b, l, w] when the word w, read unsigned, is below 9488, and 0 otherwise: what a
    compare-with-iota, select, lane-sum computes for ANY word w.
  * total x tg : the sum over rows b and steps t < 19 of pick x b (t+1) (tgt19 tg (b, t)) * maskOf tg (b, t).
  * finish     : -(total / count) * max (reward - reward1) 1 as the two programs spell it.
-/
import Idealize.ShloMosaic.PureOps.Ideal
import Idealize.ShloMosaic.Lib.ValueIdx

noncomputable section

open scoped BigOperators

namespace Cert.Spec

open Idealize.ShloMosaic Idealize.ShloMosaic.ValueIdx

abbrev S256x20x9488 : Shape := ⟨3, ![256, 20, 9488]⟩
abbrev S256x18 : Shape := ⟨2, ![256, 18]⟩
abbrev S256x19 : Shape := ⟨2, ![256, 19]⟩
abbrev S256x1 : Shape := ⟨2, ![256, 1]⟩
abbrev S1 : Shape := ⟨1, ![1]⟩
abbrev S_ : Shape := ⟨0, ![]⟩

variable {F : FTy → Type} [FloatOps F]

/-- The targets with a zero column appended: [256, 18] to [256, 19]. -/
def tgt19 (tg : IVec S256x18 32) : IVec S256x19 32 :=
  concatenate S256x19 1 [⟨S256x18, tg⟩, ⟨S256x1, broadcastInDim S256x1 ![] (by decide) (constantI S_ 32 0#32)⟩]
    (show Shape.Concatenates [S256x18, S256x1] S256x19 1 by decide)

/-- The early-stop mask: the inclusive running count of zero targets along a row (a 19-wide window sum padded 18
    low) compared with 1, as a float. -/
def maskOf (tg : IVec S256x18 32) : FVec F S256x19 .f32 :=
  uitofp .f32 (cmpi .sle
    (Host.reduceWindow IntOp.addi ![1, 19] ![1, 1] ![0, 18] ![0, 0]
      (extui 32 (cmpi .eq (tgt19 tg) (broadcastInDim S256x19 ![] (by decide) (constantI S_ 32 0#32))) (by decide))
      (broadcastInDim S_ ![] (by decide) (constantI S_ 32 0#32)) (by decide) (by decide))
    (broadcastInDim S256x19 ![] (by decide) (constantI S_ 32 1#32)))

/-- The number of kept positions: the sum of the mask. -/
def cnt (tg : IVec S256x18 32) : FVec F S_ .f32 :=
  Host.reduceAdd (maskOf (F := F) tg) (constant S_ .f32 0x00000000#32)
    (show S256x19.ReducesTo [0, 1] S_ by decide) (by decide)

/-- The closing scalar arithmetic: minus the quotient, times the larger of the reward difference and one. -/
def finish (tot n : FVec F S_ .f32) (r r1 : FVec F S1 .f32) : FVec F S_ .f32 :=
  mulf (Host.negf (Host.divf tot n))
    (maximumf (subf (shapeCast S_ r (by decide)) (shapeCast S_ r1 (by decide))) (constant S_ .f32 0x3F800000#32))

/-- The logit at row b, step l and the vocabulary position the word w names, when it names one; else 0. -/
def pick (x : FVec Ideal S256x20x9488 .f32) (b : Fin 256) (l : Fin 20) (w : BitVec 32) : EReal :=
  if h : w.toNat < 9488 then x (ix3 b l ⟨w.toNat, h⟩) else 0

/-- The masked sum of the picked logits: step t of the mask and of the targets goes with step t + 1 of the logits. -/
def total (x : FVec Ideal S256x20x9488 .f32) (tg : IVec S256x18 32) : EReal :=
  ∑ b : Fin 256, ∑ t : Fin 19, pick x b t.succ (tgt19 tg (ix2 b t)) * maskOf (F := Ideal) tg (ix2 b t)

/-- Every target is a vocabulary position: read signed it lies in [0, 9488). -/
def InRange (tg : IVec S256x18 32) : Prop :=
  ∀ i : S256x18.Idx, 0 ≤ (tg i).toInt ∧ (tg i).toInt < 9488

end Cert.Spec

end
-- ==== Proof.PreDecode.lean ====
/-
  The printed precondition, read back. The precondition is the conjunction of four one-bit words: three say that every
  float input is finite, and the last is the reduction by "and" over all 256 x 18 positions of
  (target >= 0) and (target < 9488), both compared signed against a broadcast constant. When the whole word is 1 the last
  conjunct is 1; a reduction by "and" into a single result that is 1 met a 1 at every position; and at one position the
  two comparisons say 0 <= target and target < 9488 of the word read signed.
-/
import proofs.«426047_j57990648430747_3_alg».proof.Proof.Gen.Pre_finite_inputs
import proofs.«426047_j57990648430747_3_alg».proof.Proof.Spec
import Idealize.ShloMosaic.Lib.ReduceAll
import Idealize.ShloMosaic.Lib.ValueIdx

noncomputable section

namespace Cert.PreDecode

open Idealize.ShloMosaic Idealize.ShloMosaic.ValueIdx

/-- A rank-0 shape has one index. -/
instance subsingleton_S_ : Subsingleton Cert.Pre_finite_inputs.S_.Idx := ⟨fun a b => funext fun d => d.elim0⟩

/-- One position of the range test: the "and" of the two signed comparisons against broadcast constants is 1 exactly
    when the word read signed lies in [0, 9488). -/
theorem elem_range (w : BitVec 32)
    (e : IntOp.andi (IntOp.cmpi .sge w 0#32) (IntOp.cmpi .slt w 9488#32) = 1#1) : 0 ≤ w.toInt ∧ w.toInt < 9488 := by
  obtain ⟨h0, h1⟩ := IntOp.andi_eq_one.1 e
  rw [IntOp.cmpi_sge] at h0
  rw [IntOp.cmpi_slt] at h1
  have z : (0#32 : BitVec 32).toInt = 0 := by decide
  have n : (9488#32 : BitVec 32).toInt = 9488 := by decide
  rw [z] at h0
  rw [n] at h1
  exact ⟨h0, h1⟩

/-- The precondition decoded: every target read signed lies in [0, 9488). -/
theorem inRange_of_pre {F : FTy → Type} [FloatOps F] (x : FVec F Cert.Pre_finite_inputs.S256x20x9488 .f32)
    (tg : IVec Cert.Pre_finite_inputs.S256x18 32) (r r1 : FVec F Cert.Pre_finite_inputs.S1 .f32)
    (h : Cert.Pre_finite_inputs.fn (F := F) x tg r r1 = fun _ => 1#1) : Cert.Spec.InRange tg := by
  intro i
  have e := congrFun h ix0
  unfold Cert.Pre_finite_inputs.fn Cert.Pre_finite_inputs.fn_part1 at e
  dsimp only at e
  -- the last of the four conjuncts
  have e19 := (IntOp.andi_eq_one.1 e).2
  -- the reduction by "and" over all positions: each position is 1
  have ei := Host.reduce_andi_all _ _ _ _ _ e19 i
  exact elem_range (tg i) ei

end Cert.PreDecode

end
-- ==== Proof.KHost.lean ====
/-
  The kernel program's host side read as values: what the region finds in the arrays it stages (the target words and the
  mask, each with a leading zero column, as [256, 20, 1] columns), the kept count computed before the region, and the scalar
  arithmetic after the region applied to the region's output array.
-/
import proofs.«426047_j57990648430747_3_alg».proof.Proof.Gen.KernelIdeal.Frame
import proofs.«426047_j57990648430747_3_alg».proof.Proof.Spec
import Idealize.ShloMosaic.Lib.StableHlo.Run
import Idealize.ShloMosaic.Lib.Pipeline.Value

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The target words with a leading zero column, [256, 20]. -/
def tgtPad (tg : IVec S256x18 32) : IVec S256x20 32 :=
  concatenate S256x20 1 [⟨S256x1, broadcastInDim S256x1 ![] Facts₀.bcast_S_S256x1 (constantI S_ 32 0#32)⟩, ⟨S256x19, Cert.Spec.tgt19 tg⟩]
    Facts₀.concatenates_S256x1_S256x19_S256x20_d1

/-- The mask with a leading zero column, [256, 20]. -/
def maskPad (tg : IVec S256x18 32) : FVec F S256x20 .f32 :=
  concatenate S256x20 1 [⟨S256x1, broadcastInDim S256x1 ![] Facts₀.bcast_S_S256x1 (constant S_ .f32 0x00000000#32)⟩, ⟨S256x19, Cert.Spec.maskOf (F := F) tg⟩]
    Facts₀.concatenates_S256x1_S256x19_S256x20_d1

/-- The region finds the padded target words as a [256, 20, 1] column. -/
theorem V_v14 (c : Dev nD) : (V m c main_v14 : S256x20x1.Idx → BitVec 32) =
    broadcastInDim S256x20x1 ![0, 1] Facts₀.bcast_S256x20_S256x20x1_0_1 (tgtPad (m ((c : Thread nD τ).loc main_arg1))) := by
  dsimp only [Gen.V, Gen.V0]
  simp only [Gen.hostOps0, Gen.hostOps0_1, Gen.hostOps0_2, List.flatten_cons, List.flatten_nil, List.append_nil, List.cons_append, List.nil_append]
  after_results
  unfold tgtPad Cert.Spec.tgt19
  rfl

/-- The region finds the padded mask as a [256, 20, 1] column. -/
theorem V_v15 (c : Dev nD) : (V m c main_v15 : S256x20x1.Idx → F .f32) =
    broadcastInDim S256x20x1 ![0, 1] Facts₀.bcast_S256x20_S256x20x1_0_1 (maskPad (F := F) (m ((c : Thread nD τ).loc main_arg1))) := by
  dsimp only [Gen.V, Gen.V0]
  simp only [Gen.hostOps0, Gen.hostOps0_1, Gen.hostOps0_2, List.flatten_cons, List.flatten_nil, List.append_nil, List.cons_append, List.nil_append]
  after_results
  simp only [TRef.toBuf, TRef.ofBuf, cast_eq]
  unfold maskPad Cert.Spec.maskOf Cert.Spec.tgt19
  rfl

/-- The kept count is computed before the region. -/
theorem V0_v9 (c : Dev nD) : (V0 m c (Proc.devRef .tc main_v9) : S_.Idx → F .f32) = Cert.Spec.cnt (F := F) (m ((c : Thread nD τ).loc main_arg1)) := by
  dsimp only [Gen.V0]
  simp only [Gen.hostOps0, Gen.hostOps0_1, Gen.hostOps0_2, List.flatten_cons, List.flatten_nil, List.append_nil, List.cons_append, List.nil_append]
  after_results
  simp only [TRef.toBuf, TRef.ofBuf, cast_eq]
  unfold Cert.Spec.cnt Cert.Spec.maskOf Cert.Spec.tgt19
  rfl

set_option maxHeartbeats 1600000 in
/-- After the region: the sum of the output array's sixteen partial sums, divided by the count, negated, times the
    clipped reward difference. -/
theorem tail_v24 (c : Dev nD) : (Pipeline.afterTail₀ cfgs (dats m) 0 (V0 m) [hostOps1] c main_v24 : S_.Idx → F .f32) =
    Cert.Spec.finish
      (Host.reduceAdd ((dats m 0 c).arrAt 3 cfg0.N : S16x1x1.Idx → F .f32) (constant S_ .f32 0x00000000#32) Facts₀.reducesTo_S16x1x1_S_d0_1_2 Facts₀.h_S_)
      (Cert.Spec.cnt (F := F) (m ((c : Thread nD τ).loc main_arg1)))
      (m ((c : Thread nD τ).loc main_arg2)) (m ((c : Thread nD τ).loc main_arg3)) := by
  unfold Pipeline.afterTail₀
  show StableHlo.after hostOps1 _ (Proc.devRef .tc main_v24) = _
  after_results
  have h16 : (Pipeline.withArrays (cfgs 0).spec c (V0 m c) (fun w => (dats m 0 c).arrAt w (cfgs 0).N) (Proc.devRef .tc main_v16) : S16x1x1.Idx → F .f32)
      = (dats m 0 c).arrAt 3 cfg0.N := Pipeline.withArrays_arr spec0 launch0.win.arr_inj c _ _ 3
  have h9 : (Pipeline.withArrays (cfgs 0).spec c (V0 m c) (fun w => (dats m 0 c).arrAt w (cfgs 0).N) (Proc.devRef .tc main_v9) : S_.Idx → F .f32)
      = Cert.Spec.cnt (F := F) (m ((c : Thread nD τ).loc main_arg1)) :=
    (Pipeline.withArrays_of_ne _ c (V0 m c) _ main_v9 (by exact (by decide : ∀ w, Pipeline.arrRef spec0 w ≠ main_v9))).trans (V0_v9 m c)
  have h2 : (Pipeline.withArrays (cfgs 0).spec c (V0 m c) (fun w => (dats m 0 c).arrAt w (cfgs 0).N) (Proc.devRef .tc main_arg2) : S1.Idx → F .f32)
      = m ((c : Thread nD τ).loc main_arg2) :=
    by
      rw [Pipeline.withArrays_of_ne _ c (V0 m c) _ main_arg2 (by exact (by decide : ∀ w, Pipeline.arrRef spec0 w ≠ main_arg2))]
      exact V_main_arg2 m c
  have h3 : (Pipeline.withArrays (cfgs 0).spec c (V0 m c) (fun w => (dats m 0 c).arrAt w (cfgs 0).N) (Proc.devRef .tc main_arg3) : S1.Idx → F .f32)
      = m ((c : Thread nD τ).loc main_arg3) :=
    by
      rw [Pipeline.withArrays_of_ne _ c (V0 m c) _ main_arg3 (by exact (by decide : ∀ w, Pipeline.arrRef spec0 w ≠ main_arg3))]
      exact V_main_arg3 m c
  generalize Pipeline.withArrays (cfgs 0).spec c (V0 m c) (fun w => (dats m 0 c).arrAt w (cfgs 0).N) = W at h16 h9 h2 h3 ⊢
  rw [h16, h9, h2, h3]
  unfold Cert.Spec.finish
  rfl

end Cert.KernelIdeal.KHost
end
-- ==== Proof.KBlocks.lean ====
/-
  The region's blocks and its output array. Grid point t (of 16) stages rows 16 t .. 16 t + 15 of the logits, of the
  target-word column and of the mask column, whole along the other axes, and writes entry (t, 0, 0) of the [16, 1, 1]
  output. So a block entry (bb, l, v) is the array entry (16 t + bb, l, v), and the output array after the run holds at
  (i, 0, 0) the body's result on the blocks of point i: the sixteen one-entry blocks tile the output.
-/
import proofs.«426047_j57990648430747_3_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]
variable (m : (ℓ : Loc nD τ sig) → Buf (Elt F) ℓ)

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

abbrev xblk (c : Dev nD) (t : Fin cfg0.N) : Vec F S16x20x9488 .f32 := iblk m c 0 t
abbrev tblk (c : Dev nD) (t : Fin cfg0.N) : Vec F S16x20x1 .i32 := iblk m c 1 t
abbrev mblk (c : Dev nD) (t : Fin cfg0.N) : Vec F S16x20x1 .f32 := iblk m c 2 t
abbrev xarr (c : Dev nD) : Vec F S256x20x9488 .f32 := V m c main_arg0
abbrev tarr (c : Dev nD) : Vec F S256x20x1 .i32 := V m c main_v14
abbrev marr (c : Dev nD) : Vec F S256x20x1 .f32 := V m c main_v15

theorem xblk_apply (c : Dev nD) (t : Fin cfg0.N) (bb : Fin 16) (l : Fin 20) (v : Fin 9488) (h : 16 * t.val + bb.val < 256) :
    xblk m c t (ix3 bb l v) = xarr m c (ix3 ⟨16 * t.val + bb.val, h⟩ l v) := by
  show V m c main_arg0 (((cfg0.win 0).blk t).view.emb (ix3 bb l v)) = V m c main_arg0 _
  congr 1
  obtain ⟨e0, e1, e2, -⟩ := idx_facts t
  funext a; apply Fin.ext
  match a with
  | ⟨0, _⟩ => show win0_0.index t (0 : Fin 3) * 16 + 1 * bb.val = 16 * t.val + bb.val; omega
  | ⟨1, _⟩ => show win0_0.index t (1 : Fin 3) * 20 + 1 * l.val = l.val; omega
  | ⟨2, _⟩ => show win0_0.index t (2 : Fin 3) * 9488 + 1 * v.val = v.val; omega

theorem tblk_apply (c : Dev nD) (t : Fin cfg0.N) (bb : Fin 16) (l : Fin 20) (k : Fin 1) (h : 16 * t.val + bb.val < 256) :
    tblk m c t (ix3 bb l k) = tarr m c (ix3 ⟨16 * t.val + bb.val, h⟩ l k) := by
  show V m c main_v14 (((cfg0.win 1).blk t).view.emb (ix3 bb l k)) = V m c main_v14 _
  congr 1
  obtain ⟨-, -, -, e0, e1, e2, -⟩ := idx_facts t
  funext a; apply Fin.ext
  match a with
  | ⟨0, _⟩ => show win0_1.index t (0 : Fin 3) * 16 + 1 * bb.val = 16 * t.val + bb.val; omega
  | ⟨1, _⟩ => show win0_1.index t (1 : Fin 3) * 20 + 1 * l.val = l.val; omega
  | ⟨2, _⟩ => show win0_1.index t (2 : Fin 3) * 1 + 1 * k.val = k.val; omega

theorem mblk_apply (c : Dev nD) (t : Fin cfg0.N) (bb : Fin 16) (l : Fin 20) (k : Fin 1) (h : 16 * t.val + bb.val < 256) :
    mblk m c t (ix3 bb l k) = marr m c (ix3 ⟨16 * t.val + bb.val, h⟩ l k) := by
  show V m c main_v15 (((cfg0.win 2).blk t).view.emb (ix3 bb l k)) = V m c main_v15 _
  congr 1
  obtain ⟨-, -, -, -, -, -, e0, e1, e2, -⟩ := idx_facts t
  funext a; apply Fin.ext
  match a with
  | ⟨0, _⟩ => show win0_2.index t (0 : Fin 3) * 16 + 1 * bb.val = 16 * t.val + bb.val; omega
  | ⟨1, _⟩ => show win0_2.index t (1 : Fin 3) * 20 + 1 * l.val = l.val; omega
  | ⟨2, _⟩ => show win0_2.index t (2 : Fin 3) * 1 + 1 * k.val = k.val; omega

/-- The grid point that writes output entry i. -/
def pt (i : S16x1x1.Idx) : Fin cfg0.N := ⟨(i 0).val, by rw [show cfg0.N = 16 from N_0]; exact (i 0).isLt⟩

/-- The output array after the run: entry (i, 0, 0) is the body's result on the blocks of point i. -/
def G16 (c : Dev nD) : Vec F S16x1x1 .f32 := fun i => out0_3 (xblk m c (pt i)) (tblk m c (pt i)) (mblk m c (pt i)) (ix3 0 0 0)

theorem flushed3_eq (c : Dev nD) (t : Fin cfg0.N) :
    (dats m 0 c).flushed 3 t = ((cfg0.win 3).blk t).view.read (Elt F) (G16 m c) := by
  show (cfg0.win 3).cut (grid0.coords t) ((dats m 0 c).after 3 t) = _
  rw [after0_3]
  funext j
  show out0_3 (iblk m c 0 t) (iblk m c 1 t) (iblk m c 2 t) j = G16 m c (((cfg0.win 3).blk t).view.emb j)
  obtain ⟨-, -, -, -, -, -, -, -, -, e0, e1, e2⟩ := idx_facts t
  have hp : pt (((cfg0.win 3).blk t).view.emb j) = t := by
    apply Fin.ext
    show win0_3.index t (0 : Fin 3) * 1 + 1 * (j 0).val = t.val
    have : (j 0).val < 1 := (j 0).isLt
    omega
  have hj : j = ix3 0 0 0 := by
    funext a
    apply Fin.ext
    match a with
    | ⟨0, _⟩ => have : (j 0).val < 1 := (j 0).isLt; show (j 0).val = 0; omega
    | ⟨1, _⟩ => have : (j 1).val < 1 := (j 1).isLt; show (j 1).val = 0; omega
    | ⟨2, _⟩ => have : (j 2).val < 1 := (j 2).isLt; show (j 2).val = 0; omega
  unfold G16
  rw [hp, hj]

theorem mem_blk3 (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v16).slice (win0_3.rect t)).set ↔ _
  rw [View.set_slice_whole, Rect.mem_set_unit]
  exact Iff.rfl

theorem final3 (c : Dev nD) : (dats m 0 c).arrAt 3 cfg0.N = G16 m c :=
  (dats m 0 c).arrAt_eq_of_cover 3 (G16 m c) (fun t _ => flushed3_eq m c t) (fun i => by
    refine ⟨pt i, flush0_3 _, ?_⟩
    rw [mem_blk3]
    obtain ⟨-, -, -, -, -, -, -, -, -, e0, e1, e2⟩ := idx_facts (pt i)
    intro a
    match a with
    | ⟨0, _⟩ => show win0_3.index (pt i) (0 : Fin 3) * 1 ≤ (i 0).val ∧ (i 0).val < win0_3.index (pt i) (0 : Fin 3) * 1 + 1; rw [e0]; show (i 0).val * 1 ≤ (i 0).val ∧ (i 0).val < (i 0).val * 1 + 1; omega
    | ⟨1, _⟩ => show win0_3.index (pt i) (1 : Fin 3) * 1 ≤ (i 1).val ∧ (i 1).val < win0_3.index (pt i) (1 : Fin 3) * 1 + 1; have : (i 1).val < 1 := (i 1).isLt; omega
    | ⟨2, _⟩ => show win0_3.index (pt i) (2 : Fin 3) * 1 ≤ (i 2).val ∧ (i 2).val < win0_3.index (pt i) (2 : Fin 3) * 1 + 1; have : (i 2).val < 1 := (i 2).isLt; omega)

end Cert.KernelIdeal.KBlocks
end
-- ==== Proof.KPad.lean ====
/-
  The padded arrays the region reads, at an index. The target words and the mask each get a leading zero column,
  [256, 20]: column 0 is the zero, and column t + 1 is column t of the unpadded [256, 19] array. Staged as a
  [256, 20, 1] column, the array at (b, l, k) is the array at (b, l).
-/
import proofs.«426047_j57990648430747_3_alg».proof.Proof.KHost
import proofs.«426047_j57990648430747_3_alg».proof.Proof.Spec
import Idealize.ShloMosaic.Lib.Pipeline.Value
import Idealize.ShloMosaic.Lib.ValueIdx
import Idealize.ShloMosaic.PureOps.Ideal.Laws

noncomputable section

namespace Cert.KernelIdeal.KPad

open Idealize.ShloMosaic Idealize.ShloMosaic.ValueIdx Cert.KernelIdeal

variable (tg : IVec S256x18 32) (b : Fin 256) (t : Fin 19)

/-- Column 0 of a row of the padded array lies in the zero piece, at its one column. -/
theorem left_coords (c : Fin S256x1.rank) :
    ((ix2 b (0 : Fin 1) : S256x1.Idx) c).val = ((ix2 b (0 : Fin 20) : S256x20.Idx) (c.cast rfl)).val := by
  match c with
  | ⟨0, _⟩ => rfl
  | ⟨1, _⟩ => rfl

/-- Column t + 1 of a row of the padded array lies in the second piece: off the column axis the coordinates agree. -/
theorem right_coords (c : Fin S256x19.rank) (hc : c.cast (rfl : S256x19.rank = S256x20.rank) ≠ (1 : Fin S256x20.rank)) :
    ((ix2 b t : S256x19.Idx) c).val = ((ix2 b t.succ : S256x20.Idx) (c.cast rfl)).val := by
  match c, hc with
  | ⟨0, _⟩, _ => rfl
  | ⟨1, _⟩, hc => exact absurd rfl hc

/-- On the column axis the second piece's coordinate is the padded one less the zero piece's single column. -/
theorem right_col :
    ((ix2 b t : S256x19.Idx) ((1 : Fin S256x20.rank).cast (rfl : S256x19.rank = S256x20.rank).symm)).val
      + S256x1.size ((1 : Fin S256x20.rank).cast (rfl : S256x1.rank = S256x20.rank).symm) = ((ix2 b t.succ : S256x20.Idx) 1).val := by
  show t.val + 1 = t.val + 1
  rfl

/-- The padded target words at column 0: the zero word. -/
theorem tgtPad_zero : KHost.tgtPad tg (ix2 b (0 : Fin 20)) = 0#32 := by
  unfold KHost.tgtPad
  rw [concatenate_pair_apply_left (s₁ := S256x1) (s₂ := S256x19) (1 : Fin S256x20.rank) _ _ _ (ix2 b (0 : Fin 20)) rfl
    (ix2 b (0 : Fin 1)) (left_coords b)]
  rfl

/-- The padded target words at column t + 1: the extended targets at column t. -/
theorem tgtPad_succ : KHost.tgtPad tg (ix2 b t.succ) = Cert.Spec.tgt19 tg (ix2 b t) := by
  unfold KHost.tgtPad
  exact concatenate_pair_apply_right (s₁ := S256x1) (s₂ := S256x19) (1 : Fin S256x20.rank) _ _ _ (ix2 b t.succ) rfl rfl
    (ix2 b t) (right_coords b t) (right_col b t)

/-- The padded mask at column 0: the zero word's value, the extended real 0. -/
theorem maskPad_zero : KHost.maskPad (F := Ideal) tg (ix2 b (0 : Fin 20)) = 0 := by
  unfold KHost.maskPad
  rw [concatenate_pair_apply_left (s₁ := S256x1) (s₂ := S256x19) (1 : Fin S256x20.rank) _ _ _ (ix2 b (0 : Fin 20)) rfl
    (ix2 b (0 : Fin 1)) (left_coords b)]
  exact Ideal.ofBits_zero_f32

/-- The padded mask at column t + 1: the mask at column t. -/
theorem maskPad_succ {F : FTy → Type} [FloatOps F] :
    KHost.maskPad (F := F) tg (ix2 b t.succ) = Cert.Spec.maskOf (F := F) tg (ix2 b t) := by
  unfold KHost.maskPad
  exact concatenate_pair_apply_right (s₁ := S256x1) (s₂ := S256x19) (1 : Fin S256x20.rank) _ _ _ (ix2 b t.succ) rfl rfl
    (ix2 b t) (right_coords b t) (right_col b t)

/-- A [256, 20] array staged as a [256, 20, 1] column reads, at (b, l, k), the array at (b, l). -/
theorem col_apply {α : Type} (z : S256x20.Idx → α) (b : Fin 256) (l : Fin 20) (k : Fin 1) :
    broadcastInDim S256x20x1 ![0, 1] Facts₀.bcast_S256x20_S256x20x1_0_1 z (ix3 b l k) = z (ix2 b l) := by
  simp only [broadcastInDim]
  congr 1
  funext a
  match a with
  | ⟨0, _⟩ =>
    apply Fin.ext
    split
    · next h1 => exact absurd h1 (show ¬ ((256 : Nat) = 1) by decide)
    · rfl
  | ⟨1, _⟩ =>
    apply Fin.ext
    split
    · next h1 => exact absurd h1 (show ¬ ((20 : Nat) = 1) by decide)
    · rfl

end Cert.KernelIdeal.KPad

end
-- ==== Proof.PickSum.lean ====
/-
  A sum over the 9488 vocabulary positions of a term kept only where the position, as a 32-bit word, equals a given word
  w picks the one position w names, if it names one. For v < 9488 the word of v has value v, so it equals w exactly when
  v = w.toNat; every other term of the sum is zero.
-/
import Mathlib.Algebra.BigOperators.Group.Finset.Basic
import Mathlib.Data.Fintype.BigOperators

open scoped BigOperators

namespace Cert.PickSum

/-- The word of a position below 9488 equals w exactly when the position is w's value. -/
theorem ofNat_eq_iff (v : Fin 9488) (w : BitVec 32) : BitVec.ofNat 32 v.val = w ↔ v.val = w.toNat := by
  have hv := v.isLt
  constructor
  · intro h
    rw [← h, BitVec.toNat_ofNat]
    omega
  · intro h
    apply BitVec.eq_of_toNat_eq
    rw [BitVec.toNat_ofNat, ← h]
    omega

/-- The sum of the selected terms is the term at the position the word names, or zero when it names none. -/
theorem sum_ite_word {M : Type*} [AddCommMonoid M] (f : Fin 9488 → M) (w : BitVec 32) :
    (∑ v : Fin 9488, if BitVec.ofNat 32 v.val = w then f v else 0) = if h : w.toNat < 9488 then f ⟨w.toNat, h⟩ else 0 := by
  by_cases h : w.toNat < 9488
  · rw [dif_pos h, Finset.sum_eq_single (⟨w.toNat, h⟩ : Fin 9488)]
    · rw [if_pos ((ofNat_eq_iff _ w).2 rfl)]
    · intro v _ hne
      rw [if_neg]
      intro e
      exact hne (Fin.ext ((ofNat_eq_iff v w).1 e))
    · intro hn
      exact absurd (Finset.mem_univ _) hn
  · rw [dif_neg h]
    refine Finset.sum_eq_zero (fun v _ => ?_)
    rw [if_neg]
    intro e
    have := (ofNat_eq_iff v w).1 e
    have hv := v.isLt
    omega

end Cert.PickSum
-- ==== Proof.Payload.lean ====
/-
  The kernel body's one store, read at its one index.

  The body reads three blocks: the logits x0[16, 20, 9488], the target words x1[16, 20, 1] and the mask x2[16, 20, 1].
  At row bb and step l the position's contribution is
      term bb l = (∑ v < 9488, if v = x1[bb, l, 0] then x0[bb, l, v] else 0) * x2[bb, l, 0] :
  the lane position v (an iota along the lane axis) is compared with the target word, the logit there or zero is
  selected, the selection is summed over the lanes and multiplied by the mask. The body does this for the steps in three
  chunks, 0-7, 8-15 and 16-19, sums each chunk over its steps, adds the three into a zero accumulator per row, and sums
  over the 16 rows. So the stored value is ∑ bb < 16, ∑ l < 20, term bb l.

  The chunk is stated once, for any number n of steps: its layout operations at an index (a trailing unit axis added,
  the row [1, 1, c] and the column [a, b, 1] broadcast), its two sums as sums over the reduced axis's coordinates, the
  select on an equality of words as an `if`. A load of m steps from step o reads the block at step o + l. The three
  chunk sums over 8, 8 and 4 steps are the one sum over 20 steps, split as (8 + 8) + 4.
-/
import proofs.«426047_j57990648430747_3_alg».proof.Proof.Gen.KernelIdeal.Frame
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-! ## Layout operations at an index, for a chunk of n steps -/

section Layout
variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The one row [1, 1, c] broadcast to [a, b, c] reads, at (i, j, v), the row at v. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (v : Fin c) :
    broadcastTo ⟨3, ![a, b, c]⟩ x h (ix3 i j v) = x (ix3 (0 : Fin 1) (0 : Fin 1) v) := by
  refine broadcastTo_apply x h (ix3 i j v) (ix3 (0 : Fin 1) (0 : Fin 1) v) fun ax => ?_
  match ax with
  | ⟨0, _⟩ => rfl
  | ⟨1, _⟩ => rfl
  | ⟨2, _⟩ =>
    show v.val = if c = 1 then 0 else v.val
    split
    · have := v.isLt; omega
    · rfl

/-- A column [a, b, 1] broadcast to [a, b, c] reads, at (i, j, v), the column at (i, j). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (v : Fin c) :
    broadcastTo ⟨3, ![a, b, c]⟩ x h (ix3 i j v) = x (ix3 i j (0 : Fin 1)) := by
  refine broadcastTo_apply x h (ix3 i j v) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## One chunk of n steps -/

section Chunk
variable {n : ℕ}

/-- A select on "the two words are equal" is the `if` on their equality. -/
theorem select_cmpi_eq {β : Type} {w : ℕ} (a b : BitVec w) (x y : β) :
    Scalar.select (IntOp.cmpi .eq a b) x y = if a = b then x else y :=
  if_congr IntOp.cmpi_eq rfl rfl

/-- One chunk of n steps of the body: per row and step the lane position is compared with the target word, the logit
    there or zero is selected and summed over the lanes; the sum is multiplied by the mask and summed over the steps. -/
def chunk (io : IVec S1x1x9488 32) (X : FVec Ideal ⟨3, ![16, n, 9488]⟩ .f32) (W : IVec ⟨3, ![16, n, 1]⟩ 32)
    (M : FVec Ideal ⟨3, ![16, n, 1]⟩ .f32)
    (hs : (⟨3, ![16, n, 1]⟩ : Shape).ShapeCasts ⟨3, ![16, n, 1]⟩)
    (hb1 : S1x1x9488.Broadcasts ⟨3, ![16, n, 9488]⟩)
    (hb2 : (⟨3, ![16, n, 1]⟩ : Shape).Broadcasts ⟨3, ![16, n, 9488]⟩)
    (hr2 : (⟨3, ![16, n, 9488]⟩ : Shape).Reduces [2] ⟨2, ![16, n]⟩)
    (hc1 : (⟨2, ![16, n]⟩ : Shape).ShapeCasts ⟨3, ![16, n, 1]⟩)
    (hr1 : (⟨3, ![16, n, 1]⟩ : Shape).Reduces [1] S16x1)
    (hc2 : S16x1.ShapeCasts S16x1x1) : FVec Ideal S16x1x1 .f32 :=
  shapeCast S16x1x1
    (multiReduction (F := Ideal) .add [1] S16x1
      (mulf
        (shapeCast ⟨3, ![16, n, 1]⟩
          (multiReduction (F := Ideal) .add [2] ⟨2, ![16, n]⟩
            (select
              (cmpi .eq (broadcastTo ⟨3, ![16, n, 9488]⟩ io hb1)
                (broadcastTo ⟨3, ![16, n, 9488]⟩ (shapeCast ⟨3, ![16, n, 1]⟩ W hs) hb2))
              X (broadcast ⟨3, ![16, n, 9488]⟩ (Scalar.ofBits .f32 0x00000000#32)))
            0x00000000#32 hr2 (.inl rfl) rfl) hc1)
        (shapeCast ⟨3, ![16, n, 1]⟩ M hs))
      0x00000000#32 hr1 (.inl rfl) rfl) hc2

/-- The chunk at row bb: the sum over its steps of the lane sum of the picked logits times the mask. -/
theorem chunk_apply (io : IVec S1x1x9488 32)
    (hio : ∀ v : Fin 9488, io (ix3 (0 : Fin 1) (0 : Fin 1) v) = BitVec.ofNat 32 v.val)
    (X : FVec Ideal ⟨3, ![16, n, 9488]⟩ .f32) (W : IVec ⟨3, ![16, n, 1]⟩ 32) (M : FVec Ideal ⟨3, ![16, n, 1]⟩ .f32)
    (hs : (⟨3, ![16, n, 1]⟩ : Shape).ShapeCasts ⟨3, ![16, n, 1]⟩)
    (hb1 : S1x1x9488.Broadcasts ⟨3, ![16, n, 9488]⟩)
    (hb2 : (⟨3, ![16, n, 1]⟩ : Shape).Broadcasts ⟨3, ![16, n, 9488]⟩)
    (hr2 : (⟨3, ![16, n, 9488]⟩ : Shape).Reduces [2] ⟨2, ![16, n]⟩)
    (hc1 : (⟨2, ![16, n]⟩ : Shape).ShapeCasts ⟨3, ![16, n, 1]⟩)
    (hr1 : (⟨3, ![16, n, 1]⟩ : Shape).Reduces [1] S16x1)
    (hc2 : S16x1.ShapeCasts S16x1x1) (bb : Fin 16) (u w : Fin 1) :
    chunk io X W M hs hb1 hb2 hr2 hc1 hr1 hc2 (ix3 bb u w)
      = ∑ l : Fin n, (∑ v : Fin 9488, if BitVec.ofNat 32 v.val = W (ix3 bb l (0 : Fin 1)) then X (ix3 bb l v) else 0)
          * M (ix3 bb l (0 : Fin 1)) := by
  unfold chunk
  refine (shapeCast_ab_ab1_apply _ hc2 bb u w).trans ?_
  refine (Ideal.multiReduction_add_single _ _ hr1 _ _ (ix2 bb u)).trans ?_
  show ∑ l : Fin n, _ = _
  refine Finset.sum_congr rfl fun l _ => ?_
  have e1 : hr1.lift (ix2 bb u) l = ix3 bb l (0 : Fin 1) := by
    funext c; apply Fin.ext
    match c with
    | ⟨0, _⟩ => rfl
    | ⟨1, _⟩ => rfl
    | ⟨2, _⟩ => show u.val = 0; omega
  refine (congrArg _ e1).trans ?_
  refine (mulf_apply _ _ _).trans ?_
  refine congrArg₂ (· * ·) ?_ ?_
  · refine (shapeCast_ab_ab1_apply _ hc1 bb l (0 : Fin 1)).trans ?_
    refine (Ideal.multiReduction_add_single _ _ hr2 _ _ (ix2 bb l)).trans ?_
    show ∑ v : Fin 9488, _ = _
    refine Finset.sum_congr rfl fun v _ => ?_
    have e2 : hr2.lift (ix2 bb l) v = ix3 bb l v := by
      funext c; apply Fin.ext
      match c with
      | ⟨0, _⟩ => rfl
      | ⟨1, _⟩ => rfl
      | ⟨2, _⟩ => rfl
    refine (congrArg _ e2).trans ?_
    refine (select_apply _ _ _ _).trans ?_
    show Scalar.select (IntOp.cmpi .eq (broadcastTo ⟨3, ![16, n, 9488]⟩ io hb1 (ix3 bb l v))
        (broadcastTo ⟨3, ![16, n, 9488]⟩ (shapeCast ⟨3, ![16, n, 1]⟩ W hs) hb2 (ix3 bb l v)))
      (X (ix3 bb l v)) (Ideal.ofBits .f32 0x00000000#32) = _
    rw [broadcastTo_11c_abc_apply, broadcastTo_ab1_abc_apply, shapeCast_self, hio, select_cmpi_eq,
      Ideal.ofBits_zero_f32]
  · rw [shapeCast_self]

end Chunk

/-! ## The loaded blocks at an index, and the payloads as chunks -/

theorem hz : (![0, 0, 0] : Fin 3 → ℕ) = fun _ => 0 := funext fun a => by fin_cases a <;> rfl

/-- The lane positions: the iota along the lane axis reads, at lane v, the word v. -/
theorem iota_apply (v : Fin 9488) :
    iota .tc S1x1x9488 32 [2] iota_S1x1x9488_d2_w32 (ix3 (0 : Fin 1) (0 : Fin 1) v) = BitVec.ofNat 32 v.val :=
  iota_single_apply .tc S1x1x9488 32 2 iota_S1x1x9488_d2_w32 _

/-- A load of m steps from step o of a [16, 20, c] block reads, at (bb, l, v), the block at (bb, o + l, v). -/
theorem ld_steps {Val : EltTy → Type} {e : EltTy} {c m : ℕ} (o : ℕ) (x : (⟨3, ![16, 20, c]⟩ : Shape).Idx → Val e)
    (inb : ∀ a, (![0, o, 0] : Fin 3 → ℕ) a + (⟨3, ![16, m, c]⟩ : Shape).size a ≤ (⟨3, ![16, 20, c]⟩ : Shape).size a)
    (bb : Fin 16) (l : Fin m) (v : Fin c) (k : Fin 20) (hk : k.val = o + l.val) :
    View.ld x (Rect.unit (s := ⟨3, ![16, 20, c]⟩) ![0, o, 0] (⟨3, ![16, m, c]⟩ : Shape).size inb) (ix3 bb l v)
      = x (ix3 bb k v) := by
  show x _ = x _
  refine congrArg x (funext fun a => Fin.ext ?_)
  match a with
  | ⟨0, _⟩ => show 0 + 1 * bb.val = bb.val; omega
  | ⟨1, _⟩ => show o + 1 * l.val = k.val; omega
  | ⟨2, _⟩ => show 0 + 1 * v.val = v.val; omega

/-- one (row, step) position's contribution -/
def term (x0 : Vec Ideal S16x20x9488 .f32) (x1 : Vec Ideal S16x20x1 .i32) (x2 : Vec Ideal S16x20x1 .f32) (bb : Fin 16) (l : Fin 20) : EReal :=
  (∑ v : Fin 9488, if BitVec.ofNat 32 v.val = x1 (ix3 bb l 0) then x0 (ix3 bb l v) else 0) * x2 (ix3 bb l 0)

/-- The second payload: the zero accumulator plus the chunks of steps 0-7 and 8-15. -/
theorem pay2_eq (v2 : Vec Ideal S16x8x9488 .f32) (v3 : Vec Ideal S16x8x1 .i32) (v5 : Vec Ideal S16x8x1 .f32)
    (v18 : Vec Ideal S16x8x9488 .f32) (v19 : Vec Ideal S16x8x1 .i32) (v21 : Vec Ideal S16x8x1 .f32) :
    k0_pay2 (F := Ideal) v2 v3 v5 v18 v19 v21
      = addf (addf (broadcast S16x1x1 (Scalar.ofBits .f32 0x00000000#32))
          (chunk (n := 8) (iota .tc S1x1x9488 32 [2] iota_S1x1x9488_d2_w32) v2 v3 v5 shapeCasts_S16x8x1_S16x8x1
            broadcasts_S1x1x9488_S16x8x9488 broadcasts_S16x8x1_S16x8x9488 reduces_S16x8x9488_S16x8
            shapeCasts_S16x8_S16x8x1 reduces_S16x8x1_S16x1 shapeCasts_S16x1_S16x1x1))
          (chunk (n := 8) (iota .tc S1x1x9488 32 [2] iota_S1x1x9488_d2_w32) v18 v19 v21 shapeCasts_S16x8x1_S16x8x1
            broadcasts_S1x1x9488_S16x8x9488 broadcasts_S16x8x1_S16x8x9488 reduces_S16x8x9488_S16x8
            shapeCasts_S16x8_S16x8x1 reduces_S16x8x1_S16x1 shapeCasts_S16x1_S16x1x1) := rfl

/-- The first payload: the accumulator plus the chunk of steps 16-19, summed over the rows. -/
theorem pay1_eq (v0 : IVec S1x1x9488 32) (v33 : FVec Ideal S16x1x1 .f32) (v34 : Vec Ideal S16x4x9488 .f32)
    (v35 : Vec Ideal S16x4x1 .i32) (v37 : Vec Ideal S16x4x1 .f32) :
    k0_pay1 (F := Ideal) v0 v33 v34 v35 v37
      = shapeCast S1x1x1
          (multiReduction (F := Ideal) .add [0] S1x1
            (addf v33
              (chunk (n := 4) v0 v34 v35 v37 shapeCasts_S16x4x1_S16x4x1
                broadcasts_S1x1x9488_S16x4x9488 broadcasts_S16x4x1_S16x4x9488 reduces_S16x4x9488_S16x4
                shapeCasts_S16x4_S16x4x1 reduces_S16x4x1_S16x1 shapeCasts_S16x1_S16x1x1))
            0x00000000#32 reduces_S16x1x1_S1x1 (.inl rfl) rfl) shapeCasts_S1x1_S1x1x1 := rfl

/-- A chunk of m steps loaded from step o of the three blocks: the sum over its steps of the positions' contributions
    (idx l is step o + l of the block). -/
theorem chunk_ld {m : ℕ} (o : ℕ) (x0 : Vec Ideal S16x20x9488 .f32) (x1 : Vec Ideal S16x20x1 .i32)
    (x2 : Vec Ideal S16x20x1 .f32)
    (inb0 : ∀ a, (![0, o, 0] : Fin 3 → ℕ) a + (⟨3, ![16, m, 9488]⟩ : Shape).size a ≤ S16x20x9488.size a)
    (inb1 : ∀ a, (![0, o, 0] : Fin 3 → ℕ) a + (⟨3, ![16, m, 1]⟩ : Shape).size a ≤ S16x20x1.size a)
    (hs : (⟨3, ![16, m, 1]⟩ : Shape).ShapeCasts ⟨3, ![16, m, 1]⟩)
    (hb1 : S1x1x9488.Broadcasts ⟨3, ![16, m, 9488]⟩)
    (hb2 : (⟨3, ![16, m, 1]⟩ : Shape).Broadcasts ⟨3, ![16, m, 9488]⟩)
    (hr2 : (⟨3, ![16, m, 9488]⟩ : Shape).Reduces [2] ⟨2, ![16, m]⟩)
    (hc1 : (⟨2, ![16, m]⟩ : Shape).ShapeCasts ⟨3, ![16, m, 1]⟩)
    (hr1 : (⟨3, ![16, m, 1]⟩ : Shape).Reduces [1] S16x1)
    (hc2 : S16x1.ShapeCasts S16x1x1)
    (idx : Fin m → Fin 20) (hidx : ∀ l, (idx l).val = o + l.val) (bb : Fin 16) (u w : Fin 1) :
    chunk (n := m) (iota .tc S1x1x9488 32 [2] iota_S1x1x9488_d2_w32)
        (View.ld x0 (Rect.unit (s := S16x20x9488) ![0, o, 0] (⟨3, ![16, m, 9488]⟩ : Shape).size inb0))
        (View.ld x1 (Rect.unit (s := S16x20x1) ![0, o, 0] (⟨3, ![16, m, 1]⟩ : Shape).size inb1))
        (View.ld x2 (Rect.unit (s := S16x20x1) ![0, o, 0] (⟨3, ![16, m, 1]⟩ : Shape).size inb1))
        hs hb1 hb2 hr2 hc1 hr1 hc2 (ix3 bb u w)
      = ∑ l : Fin m, term x0 x1 x2 bb (idx l) := by
  refine (chunk_apply _ iota_apply _ _ _ hs hb1 hb2 hr2 hc1 hr1 hc2 bb u w).trans ?_
  refine Finset.sum_congr rfl fun l _ => ?_
  unfold term
  rw [ld_steps o x1 inb1 bb l 0 (idx l) (hidx l), ld_steps o x2 inb1 bb l 0 (idx l) (hidx l)]
  refine congrArg (· * _) (Finset.sum_congr rfl fun v _ => ?_)
  rw [ld_steps o x0 inb0 bb l v (idx l) (hidx l)]

/-! ## The body's one store at its one index -/

/-- The body's result: the sum over the 16 rows and the 20 steps of the positions' contributions. -/
theorem out0_3_apply (x0 : Vec Ideal S16x20x9488 .f32) (x1 : Vec Ideal S16x20x1 .i32) (x2 : Vec Ideal S16x20x1 .f32)
    (y : S1x1x1.Idx) :
    Gen.out0_3 (F := Ideal) x0 x1 x2 y = ∑ bb : Fin 16, ∑ l : Fin 20, term x0 x1 x2 bb l := by
  obtain ⟨a, b, c, rfl⟩ : ∃ (a b c : Fin 1), y = ix3 a b c := ⟨y 0, y 1, y 2, eq_ix3 y⟩
  unfold Gen.out0_3
  rw [View.canon_unit_zero hz]
  refine (congrFun (pay1_eq _ _ _ _ _) (ix3 a b c)).trans ?_
  refine (shapeCast_ab_ab1_apply _ shapeCasts_S1x1_S1x1x1 a b c).trans ?_
  refine (Ideal.multiReduction_add_single _ _ reduces_S16x1x1_S1x1 _ _ (ix2 a b)).trans ?_
  show ∑ bb : Fin 16, _ = _
  refine Finset.sum_congr rfl fun bb _ => ?_
  have e0 : reduces_S16x1x1_S1x1.lift (ix2 a b) bb = ix3 bb a b := by
    funext d; apply Fin.ext
    match d with
    | ⟨0, _⟩ => rfl
    | ⟨1, _⟩ => rfl
    | ⟨2, _⟩ => rfl
  refine (congrArg _ e0).trans ?_
  refine (addf_apply _ _ _).trans ?_
  have c0 := chunk_ld (m := 8) 0 x0 x1 x2 inb_S16x20x9488_S16x8x9488_0_0_0 inb_S16x20x1_S16x8x1_0_0_0
    shapeCasts_S16x8x1_S16x8x1 broadcasts_S1x1x9488_S16x8x9488 broadcasts_S16x8x1_S16x8x9488
    reduces_S16x8x9488_S16x8 shapeCasts_S16x8_S16x8x1 reduces_S16x8x1_S16x1 shapeCasts_S16x1_S16x1x1
    (fun l => Fin.castAdd 4 (Fin.castAdd 8 l)) (fun l => (Nat.zero_add _).symm) bb a b
  have c1 := chunk_ld (m := 8) 8 x0 x1 x2 inb_S16x20x9488_S16x8x9488_0_8_0 inb_S16x20x1_S16x8x1_0_8_0
    shapeCasts_S16x8x1_S16x8x1 broadcasts_S1x1x9488_S16x8x9488 broadcasts_S16x8x1_S16x8x9488
    reduces_S16x8x9488_S16x8 shapeCasts_S16x8_S16x8x1 reduces_S16x8x1_S16x1 shapeCasts_S16x1_S16x1x1
    (fun l => Fin.castAdd 4 (Fin.natAdd 8 l)) (fun l => rfl) bb a b
  have c2 := chunk_ld (m := 4) 16 x0 x1 x2 inb_S16x20x9488_S16x4x9488_0_16_0 inb_S16x20x1_S16x4x1_0_16_0
    shapeCasts_S16x4x1_S16x4x1 broadcasts_S1x1x9488_S16x4x9488 broadcasts_S16x4x1_S16x4x9488
    reduces_S16x4x9488_S16x4 shapeCasts_S16x4_S16x4x1 reduces_S16x4x1_S16x1 shapeCasts_S16x1_S16x1x1
    (fun l => Fin.natAdd 16 l) (fun l => rfl) bb a b
  have p2 : k0_pay2 (F := Ideal) (View.ld x0 r0_0) (View.ld x1 r0_1) (View.ld x2 r0_1) (View.ld x0 r0_2)
        (View.ld x1 r0_3) (View.ld x2 r0_3) (ix3 bb a b)
      = (0 + ∑ l : Fin 8, term x0 x1 x2 bb (Fin.castAdd 4 (Fin.castAdd 8 l)))
        + ∑ l : Fin 8, term x0 x1 x2 bb (Fin.castAdd 4 (Fin.natAdd 8 l)) :=
    (congrFun (pay2_eq _ _ _ _ _ _) (ix3 bb a b)).trans ((addf_apply _ _ _).trans
      (congrArg₂ (· + ·) ((addf_apply _ _ _).trans (congrArg₂ (· + ·) Ideal.ofBits_zero_f32 c0)) c1))
  refine (congrArg₂ (· + ·) p2 c2).trans ?_
  rw [zero_add]
  exact ((Fin.sum_univ_add (a := 16) (b := 4) (fun l => term x0 x1 x2 bb l)).trans
    (congrArg (· + _) (Fin.sum_univ_add (a := 8) (b := 8) (fun i => term x0 x1 x2 bb (Fin.castAdd 4 i))))).symm

end Cert.KernelIdeal.Payload

end
-- ==== Proof.SumBlocks.lean ====
/-
  A sum over 256 positions, cut into 16 blocks of 16: position 16 * i + bb is position bb of block i. The pairs (i, bb)
  are in bijection with the positions (the pair goes to bb + 16 * i), and a sum over pairs is the iterated sum.
-/
import Mathlib.Data.Fintype.BigOperators
import Mathlib.Logic.Equiv.Fin.Basic

open scoped BigOperators

namespace Cert.SumBlocks

/-- The sum over blocks of the sums within a block is the sum over all positions, in any commutative additive monoid. -/
theorem sum_blocks {M : Type*} [AddCommMonoid M] (f : Fin 256 → M) :
    ∑ i : Fin 16, ∑ bb : Fin 16, f ⟨16 * i.val + bb.val, by omega⟩ = ∑ b : Fin 256, f b := by
  rw [← Fintype.sum_prod_type' (fun (i : Fin 16) (bb : Fin 16) => f ⟨16 * i.val + bb.val, by omega⟩)]
  refine Fintype.sum_equiv (finProdFinEquiv (m := 16) (n := 16)) _ (fun b : Fin (16 * 16) => f b) (fun p => ?_)
  refine congrArg f (Fin.ext ?_)
  show 16 * p.1.val + p.2.val = p.2.val + 16 * p.1.val
  omega

end Cert.SumBlocks
-- ==== Proof.KValue.lean ====
/-
  The kernel program's result as the shared function of its arguments. Entry (i, 0, 0) of the region's output is the sum
  over the sixteen rows bb of block i and the twenty steps l of (the lane sum that picks the logit at the target word) times
  (the padded mask); row bb of block i is row 16 i + bb of the arrays; the step-0 column of the padded mask is zero and
  step t + 1 of the padded columns is step t of the extended targets and of the mask; and the sixteen block sums add up
  to the sum over all 256 rows. The scalar arithmetic after the region is then the shared closing arithmetic.
-/
import proofs.«426047_j57990648430747_3_alg».proof.Proof.KHost
import proofs.«426047_j57990648430747_3_alg».proof.Proof.KBlocks
import proofs.«426047_j57990648430747_3_alg».proof.Proof.KPad
import proofs.«426047_j57990648430747_3_alg».proof.Proof.PickSum
import proofs.«426047_j57990648430747_3_alg».proof.Proof.Payload
import proofs.«426047_j57990648430747_3_alg».proof.Proof.SumBlocks
import Idealize.ShloMosaic.PureOps.Ideal.Laws
import Idealize.ShloMosaic.Lib.IdealHost

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.KBlocks

variable (m : (ℓ : Loc nD τ sig) → Buf (Elt Ideal) ℓ)

/-- One (row, step) position of block t: the picked logit times the padded mask, at row 16 t + bb of the arrays. -/
theorem term_eq (c : Dev nD) (t : Fin cfg0.N) (bb : Fin 16) (l : Fin 20) (h : 16 * t.val + bb.val < 256) :
    Payload.term (xblk m c t) (tblk m c t) (mblk m c t) bb l
      = Cert.Spec.pick (m ((c : Thread nD τ).loc main_arg0)) ⟨16 * t.val + bb.val, h⟩ l
          (KHost.tgtPad (m ((c : Thread nD τ).loc main_arg1)) (ix2 ⟨16 * t.val + bb.val, h⟩ l))
        * KHost.maskPad (F := Ideal) (m ((c : Thread nD τ).loc main_arg1)) (ix2 ⟨16 * t.val + bb.val, h⟩ l) := by
  unfold Payload.term
  rw [tblk_apply m c t bb l 0 h, mblk_apply m c t bb l 0 h,
    show tarr m c = _ from KHost.V_v14 m c, show marr m c = _ from KHost.V_v15 m c, KPad.col_apply, KPad.col_apply,
    PickSum.sum_ite_word]
  congr 1
  unfold Cert.Spec.pick
  split
  · rw [xblk_apply m c t bb l _ h, show xarr m c = _ from V_main_arg0 m c]
  · rfl

/-- One row: the twenty padded steps are the nineteen steps of the extended targets and the mask. -/
theorem row_eq (x : FVec Ideal S256x20x9488 .f32) (tg : IVec S256x18 32) (b : Fin 256) :
    ∑ l : Fin 20, Cert.Spec.pick x b l (KHost.tgtPad tg (ix2 b l)) * KHost.maskPad (F := Ideal) tg (ix2 b l)
      = ∑ s : Fin 19, Cert.Spec.pick x b s.succ (Cert.Spec.tgt19 tg (ix2 b s)) * Cert.Spec.maskOf (F := Ideal) tg (ix2 b s) := by
  rw [Fin.sum_univ_succ, KPad.maskPad_zero, mul_zero, zero_add]
  refine Finset.sum_congr rfl fun s _ => ?_
  rw [KPad.tgtPad_succ, KPad.maskPad_succ]

/-- One row of the total. -/
def rowTerm (x : FVec Ideal S256x20x9488 .f32) (tg : IVec S256x18 32) (b : Fin 256) : EReal :=
  ∑ s : Fin 19, Cert.Spec.pick x b s.succ (Cert.Spec.tgt19 tg (ix2 b s)) * Cert.Spec.maskOf (F := Ideal) tg (ix2 b s)

/-- The output array's entry i: the rows 16 i .. 16 i + 15 of the total. -/
theorem G16_apply (c : Dev nD) (i : S16x1x1.Idx) (hi : ∀ bb : Fin 16, 16 * (i 0).val + bb.val < 256) :
    G16 m c i = ∑ bb : Fin 16,
      rowTerm (m ((c : Thread nD τ).loc main_arg0)) (m ((c : Thread nD τ).loc main_arg1)) ⟨16 * (i 0).val + bb.val, hi bb⟩ := by
  unfold G16
  rw [Payload.out0_3_apply]
  refine Finset.sum_congr rfl fun bb _ => ?_
  have hlt : 16 * (pt i).val + bb.val < 256 := by
    have : (i 0).val < 16 := (i 0).isLt
    show 16 * (i 0).val + bb.val < 256
    omega
  rw [Finset.sum_congr rfl fun l _ => term_eq m c (pt i) bb l hlt]
  exact row_eq _ _ ⟨16 * (pt i).val + bb.val, hlt⟩

/-- The output array's sixteen indices are its first coordinates. -/
def outEquiv : S16x1x1.Idx ≃ Fin 16 where
  toFun i := i 0
  invFun a := ix3 a 0 0
  left_inv i := by
    funext d; apply Fin.ext
    match d with
    | ⟨0, _⟩ => rfl
    | ⟨1, _⟩ => have : (i 1).val < 1 := (i 1).isLt; show 0 = (i 1).val; omega
    | ⟨2, _⟩ => have : (i 2).val < 1 := (i 2).isLt; show 0 = (i 2).val; omega
  right_inv _ := rfl

/-- The sum of the output array's sixteen entries is the total. -/
theorem sum_G16 (c : Dev nD) :
    ∑ i : S16x1x1.Idx, G16 m c i = Cert.Spec.total (m ((c : Thread nD τ).loc main_arg0)) (m ((c : Thread nD τ).loc main_arg1)) := by
  have ht : Cert.Spec.total (m ((c : Thread nD τ).loc main_arg0)) (m ((c : Thread nD τ).loc main_arg1))
      = ∑ b : Fin 256, rowTerm (m ((c : Thread nD τ).loc main_arg0)) (m ((c : Thread nD τ).loc main_arg1)) b := rfl
  rw [ht, ← Cert.SumBlocks.sum_blocks (rowTerm (m ((c : Thread nD τ).loc main_arg0)) (m ((c : Thread nD τ).loc main_arg1)))]
  refine Fintype.sum_equiv outEquiv _ _ fun i => ?_
  have hi : ∀ bb : Fin 16, 16 * (i 0).val + bb.val < 256 := fun bb => by
    have : (i 0).val < 16 := (i 0).isLt
    omega
  exact G16_apply m c i hi

/-- The host's sum of the output array, from zero, is the total at its one index. -/
theorem tot_eq (c : Dev nD) :
    (Host.reduceAdd (G16 m c) (constant S_ .f32 0x00000000#32) Facts₀.reducesTo_S16x1x1_S_d0_1_2 Facts₀.h_S_ : S_.Idx → EReal)
      = fun _ => Cert.Spec.total (m ((c : Thread nD τ).loc main_arg0)) (m ((c : Thread nD τ).loc main_arg1)) := by
  funext j
  rw [hostReduceAdd_apply, Ideal.hostReduceAdd_total _ (fun a => a.elim0), constant_apply, Ideal.ofBits_zero_f32,
    zero_add, sum_G16]

/-- The result buffer after the lines that follow the region: the shared function of the arguments. -/
theorem v24_eq (c : Dev nD) :
    (Pipeline.afterTail₀ cfgs (dats m) 0 (V0 m) [hostOps1] c main_v24 : S_.Idx → EReal) = Cert.Spec.finish (F := Ideal)
      (fun _ => Cert.Spec.total (m ((c : Thread nD τ).loc main_arg0)) (m ((c : Thread nD τ).loc main_arg1)))
      (Cert.Spec.cnt (m ((c : Thread nD τ).loc main_arg1)))
      (m ((c : Thread nD τ).loc main_arg2)) (m ((c : Thread nD τ).loc main_arg3)) := by
  rw [KHost.tail_v24 m c, final3 m c, tot_eq m c]

/-- The frame run read as values: the result buffer at the shared function of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v24) = Cert.Spec.finish (F := Ideal)
          (fun _ => Cert.Spec.total (m ((c.tc : Thread nD τ).loc main_arg0)) (m ((c.tc : Thread nD τ).loc main_arg1)))
          (Cert.Spec.cnt (m ((c.tc : Thread nD τ).loc main_arg1)))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v24 (Pipeline.mem_restRefs_of main_v24 (by decide) (by decide))).trans (v24_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KValue
end
-- ==== Proof.RefTerm.lean ====
/-
  The reference's gathered log-probabilities as one term of its arguments: the slice of steps 1..19 of the logits,
  the extended targets as a [256, 19, 1] column, jnp's take_along_axis (a negative index wrapped by adding 9488, the
  bounds test 0 <= i <= 9487, the clamping gather, NaN where the test fails), reshaped to [256, 19].
-/
import proofs.«426047_j57990648430747_3_alg».proof.ReferenceIdeal
import proofs.«426047_j57990648430747_3_alg».proof.Proof.Spec

noncomputable section

namespace Cert.ReferenceIdeal.RefTerm

open Idealize.ShloMosaic Cert.ReferenceIdeal

variable {F : FTy → Type} [FloatOps F] [Cert.ReferenceIdeal.Facts]
open Cert.ReferenceIdeal.Facts₀ Cert.ReferenceIdeal.Facts

/-- The index column take_along_axis gathers with: the extended targets, a negative one wrapped by adding 9488,
    as [256, 19, 1, 1]. -/
def wrapped (tg : IVec S256x18 32) : IVec S256x19x1x1 32 :=
  shapeCast S256x19x1x1
    (select (cmpi .slt (broadcastInDim S256x19x1 ![0, 1] bcast_S256x19_S256x19x1_0_1 (Cert.Spec.tgt19 tg))
        (broadcastInDim S256x19x1 ![] bcast_S_S256x19x1 (constantI S_ 32 0#32)))
      (addi (broadcastInDim S256x19x1 ![0, 1] bcast_S256x19_S256x19x1_0_1 (Cert.Spec.tgt19 tg))
        (broadcastInDim S256x19x1 ![] bcast_S_S256x19x1 (constantI S_ 32 9488#32)))
      (broadcastInDim S256x19x1 ![0, 1] bcast_S256x19_S256x19x1_0_1 (Cert.Spec.tgt19 tg)))
    shapeCasts_S256x19x1_S256x19x1x1

/-- The reference's log-probability array [256, 19]. -/
def logp (x : FVec F S256x20x9488 .f32) (tg : IVec S256x18 32) : FVec F S256x19 .f32 :=
  shapeCast S256x19
    (select
      (Host.reduce IntOp.andi
        (andi (cmpi .sge (wrapped tg) (broadcastInDim S256x19x1x1 ![] bcast_S_S256x19x1x1 (constantI S_ 32 0#32)))
          (cmpi .sle (wrapped tg)
            (broadcastInDim S256x19x1x1 ![0, 1, 2, 3] bcast_S1x1x1x1_S256x19x1x1_0_1_2_3
              (broadcastInDim S1x1x1x1 ![3] bcast_S1_S1x1x1x1_3 (constantI S1 32 9487#32)))))
        (constantI S_ 1 1#1) reducesTo_S256x19x1x1_S256x19x1_d3 h_S_)
      (Host.gather gather_S256x19x9488_S256x19x1x1_S256x19x1_n_2_01_01_2_3_111
        (extractStridedSlice S256x19x9488 ![0, 1, 0] x slices_S256x20x9488_S256x19x9488_0_1_0) (wrapped tg))
      (broadcastInDim S256x19x1 ![] bcast_S_S256x19x1 (constant S_ .f32 0x7FC00000#32)))
    shapeCasts_S256x19x1_S256x19

/-- The reference's result as one term of its four arguments. -/
def result (x : FVec F S256x20x9488 .f32) (tg : IVec S256x18 32) (r r1 : FVec F S1 .f32) : FVec F S_ .f32 :=
  Cert.Spec.finish
    (Host.reduceAdd (mulf (logp x tg) (Cert.Spec.maskOf tg)) (constant S_ .f32 0x00000000#32) reducesTo_S256x19_S_d0_1 h_S_)
    (Cert.Spec.cnt tg) r r1

end Cert.ReferenceIdeal.RefTerm

end
-- ==== Proof.RefRun.lean ====
/-
  The reference program's run, read back by hand. Its entry function calls three module-local functions (the
  running count of zero targets, in two layers, and the bounds-checked gather along the vocabulary axis); a call
  executes the callee's body on the operands, so the entry function is one straight line of fifty-three host
  operations: its own, with each callee's operations listed at the call site over that call's record of buffers.
  Run from any memory with zero counters, the line terminates with the result buffer at the composed term of the
  four arguments' launch contents, the arguments unchanged.
-/
import proofs.«426047_j57990648430747_3_alg».proof.Proof.Gen.ReferenceIdeal
import proofs.«426047_j57990648430747_3_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The entry function's fifty-three operations in order. Its own six up to the comparison with zero; the count
    function's conversion of the comparison bits to words and, inside it, the inner function's three (the zero, its
    rank-zero broadcast, the window sum); six more up to the slice of steps 1..19 and the targets as a column; the
    gather function's twenty-three (the wrap of a negative index, the bounds test, the gather, the fill value, the
    select); then the fourteen that reshape, multiply by the mask, sum, divide, negate and scale. -/
abbrev ops : List (HloOp τ sig (Elt F)) :=
  [ nullary main_c (constantI S_ 32 0#32),
    unary main_c main_v0 (broadcastInDim S256x1 ![] bcast_S_S256x1 : (⟨S_, .i32⟩ : BufTy).Contents (Elt F) → (⟨S256x1, .i32⟩ : BufTy).Contents (Elt F)),
    binary main_arg1 main_v0 main_v1 ((fun a b => concatenate S256x19 1 [⟨S256x18, a⟩, ⟨S256x1, b⟩] concatenates_S256x18_S256x1_S256x19_d1) : (⟨S256x18, .i32⟩ : BufTy).Contents (Elt F) → (⟨S256x1, .i32⟩ : BufTy).Contents (Elt F) → (⟨S256x19, .i32⟩ : BufTy).Contents (Elt F)),
    nullary main_c_0 (constantI S_ 32 0#32),
    unary main_c_0 main_v2 (broadcastInDim S256x19 ![] bcast_S_S256x19 : (⟨S_, .i32⟩ : BufTy).Contents (Elt F) → (⟨S256x19, .i32⟩ : BufTy).Contents (Elt F)),
    binary main_v1 main_v2 main_v3 (cmpi .eq : (⟨S256x19, .i32⟩ : BufTy).Contents (Elt F) → (⟨S256x19, .i32⟩ : BufTy).Contents (Elt F) → (⟨S256x19, .i1⟩ : BufTy).Contents (Elt F)),
    TRef.unary (.of main_v3) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![1, 19] ![1, 1] ![0, 18] ![0, 0] x v reduceWindows_S256x19_S256x19_w1s1p0_0_w19s1p18_0 h_S_),
    nullary main_c_1 (constantI S_ 32 1#32),
    unary main_c_1 main_v5 (broadcastInDim S256x19 ![] bcast_S_S256x19 : (⟨S_, .i32⟩ : BufTy).Contents (Elt F) → (⟨S256x19, .i32⟩ : BufTy).Contents (Elt F)),
    binary main_v4 main_v5 main_v6 (cmpi .sle : (⟨S256x19, .i32⟩ : BufTy).Contents (Elt F) → (⟨S256x19, .i32⟩ : BufTy).Contents (Elt F) → (⟨S256x19, .i1⟩ : BufTy).Contents (Elt F)),
    unary main_v6 main_v7 (uitofp .f32 : (⟨S256x19, .i1⟩ : BufTy).Contents (Elt F) → (⟨S256x19, .f32⟩ : BufTy).Contents (Elt F)),
    unary main_arg0 main_v8 ((extractStridedSlice S256x19x9488 ![0, 1, 0] · slices_S256x20x9488_S256x19x9488_0_1_0) : (⟨S256x20x9488, .f32⟩ : BufTy).Contents (Elt F) → (⟨S256x19x9488, .f32⟩ : BufTy).Contents (Elt F)),
    unary main_v1 main_v9 (broadcastInDim S256x19x1 ![0, 1] bcast_S256x19_S256x19x1_0_1 : (⟨S256x19, .i32⟩ : BufTy).Contents (Elt F) → (⟨S256x19x1, .i32⟩ : BufTy).Contents (Elt F)),
    TRef.nullary main_call1.c (constantI S_ 32 0#32),
    TRef.unary main_call1.c main_call1.v0 (broadcastInDim S256x19x1 ![] bcast_S_S256x19x1),
    TRef.binary (.of main_v9) main_call1.v0 main_call1.v1 (cmpi .slt),
    TRef.nullary main_call1.c_0 (constantI S_ 32 9488#32),
    TRef.unary main_call1.c_0 main_call1.v2 (broadcastInDim S256x19x1 ![] bcast_S_S256x19x1),
    TRef.binary (.of main_v9) main_call1.v2 main_call1.v3 addi,
    TRef.ternary main_call1.v1 main_call1.v3 (.of main_v9) main_call1.v4 select,
    TRef.reshape main_call1.v4 main_call1.v5 rfl shapeCasts_S256x19x1_S256x19x1x1,
    TRef.nullary main_call1.c_1 (constantI S1 32 9487#32),
    TRef.nullary main_call1.c_2 (constantI S_ 32 0#32),
    TRef.unary main_call1.c_2 main_call1.v6 (broadcastInDim S256x19x1x1 ![] bcast_S_S256x19x1x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S256x19x1x1 ![0, 1, 2, 3] bcast_S1x1x1x1_S256x19x1x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S256x19x1x1_S256x19x1_d3 h_S_),
    TRef.binary (.of main_v8) main_call1.v5 main_call1.v13 (fun x i => Host.gather gather_S256x19x9488_S256x19x1x1_S256x19x1_n_2_01_01_2_3_111 x i),
    TRef.nullary main_call1.cst (constant S_ .f32 0x7FC00000#32),
    TRef.unary main_call1.cst main_call1.v14 (broadcastInDim S256x19x1 ![] bcast_S_S256x19x1),
    TRef.ternary main_call1.v12 main_call1.v13 main_call1.v14 main_call1.v15 select,
    reshape main_v10 main_v11 rfl shapeCasts_S256x19x1_S256x19,
    nullary main_cst (constant S_ .f32 0x00000000#32),
    binary main_v7 main_cst main_v12 ((fun x v => Host.reduceAdd x v reducesTo_S256x19_S_d0_1 h_S_) : (⟨S256x19, .f32⟩ : BufTy).Contents (Elt F) → (⟨S_, .f32⟩ : BufTy).Contents (Elt F) → (⟨S_, .f32⟩ : BufTy).Contents (Elt F)),
    reshape main_arg2 main_v13 rfl shapeCasts_S1_S_,
    reshape main_arg3 main_v14 rfl shapeCasts_S1_S_,
    binary main_v13 main_v14 main_v15 (subf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_v15 main_cst_2 main_v16 (maximumf : (⟨S_, .f32⟩ : BufTy).Contents (Elt F) → (⟨S_, .f32⟩ : BufTy).Contents (Elt F) → (⟨S_, .f32⟩ : BufTy).Contents (Elt F)),
    binary main_v11 main_v7 main_v17 (mulf : (⟨S256x19, .f32⟩ : BufTy).Contents (Elt F) → (⟨S256x19, .f32⟩ : BufTy).Contents (Elt F) → (⟨S256x19, .f32⟩ : BufTy).Contents (Elt F)),
    nullary main_cst_3 (constant S_ .f32 0x00000000#32),
    binary main_v17 main_cst_3 main_v18 ((fun x v => Host.reduceAdd x v reducesTo_S256x19_S_d0_1 h_S_) : (⟨S256x19, .f32⟩ : BufTy).Contents (Elt F) → (⟨S_, .f32⟩ : BufTy).Contents (Elt F) → (⟨S_, .f32⟩ : BufTy).Contents (Elt F)),
    binary main_v18 main_v12 main_v19 (Host.divf : (⟨S_, .f32⟩ : BufTy).Contents (Elt F) → (⟨S_, .f32⟩ : BufTy).Contents (Elt F) → (⟨S_, .f32⟩ : BufTy).Contents (Elt F)),
    unary main_v19 main_v20 (Host.negf : (⟨S_, .f32⟩ : BufTy).Contents (Elt F) → (⟨S_, .f32⟩ : BufTy).Contents (Elt F)),
    binary main_v20 main_v16 main_v21 (mulf : (⟨S_, .f32⟩ : BufTy).Contents (Elt F) → (⟨S_, .f32⟩ : BufTy).Contents (Elt F) → (⟨S_, .f32⟩ : BufTy).Contents (Elt F)) ]

-- fifty-three binds re-associated: the rewrite under the chain recurses once per statement
set_option maxRecDepth 1024 in
/-- The entry function is that straight line: the callees' definitions unfolded at their calls and the records at
    their fields, both sides are one chain of host steps once sequencing is reassociated. -/
theorem main_eq (c : Dev nD) : main (F := F) c = seq ops := by
  simp only [main, fn_cumsum.body, fn_cumsum_0.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., nullary_bufs_sub .., unary_bufs_sub .., binary_bufs_sub ..,
    nullary_bufs_sub .., unary_bufs_sub .., binary_bufs_sub .., unary_bufs_sub .., unary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., nullary_bufs_sub .., binary_bufs_sub .., reshape_bufs_sub .., reshape_bufs_sub .., binary_bufs_sub ..,
    nullary_bufs_sub .., binary_bufs_sub .., binary_bufs_sub .., nullary_bufs_sub .., binary_bufs_sub .., binary_bufs_sub ..,
    unary_bufs_sub .., binary_bufs_sub ..⟩

/-- What the result buffer holds after the line, from any contents: the composed term of the four arguments'. The
    operations' results are read off one by one — each at its own result buffer its function's value, at any other
    buffer what was there —, the two computed operands of the concatenation inside its operand list; the typed
    references' transports along a reflexive equation are the identity; what is left is the composed term with its
    definitions unfolded. -/
theorem out_eq (V : Valuation τ sig (Elt F)) :
    after ops V (Proc.devRef .tc main_v21)
      = Cert.ReferenceIdeal.RefTerm.result (V (Proc.devRef .tc main_arg0)) (V (Proc.devRef .tc main_arg1))
          (V (Proc.devRef .tc main_arg2)) (V (Proc.devRef .tc main_arg3)) := by
  after_results_simp
  repeat (first
    | rw [unary_result] | rw [nullary_result]
    | (rw [unary_result_ne]; rotate_left; decide)
    | (rw [nullary_result_ne]; rotate_left; decide))
  simp only [TRef.toBuf, TRef.ofBuf, cast_eq]
  unfold Cert.ReferenceIdeal.RefTerm.result Cert.ReferenceIdeal.RefTerm.logp Cert.ReferenceIdeal.RefTerm.wrapped
    Cert.Spec.finish Cert.Spec.cnt Cert.Spec.maskOf Cert.Spec.tgt19
  rfl

/-- On every device, for any float values, from any memory with zero counters: every weakly fair execution of the
    entry function terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = Cert.ReferenceIdeal.RefTerm.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v21).trans (out_eq (launchContents m c)),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.RefValue.lean ====
/-
  The reference's value read index by index, at the extended reals.

  Under the range hypothesis (every target, read signed, lies in [0, 9488)) each extended target w of row b and step t
  has 0 <= w < 9488 whether read signed or unsigned: steps below 18 are targets, step 18 is the zero word. So in the
  index column the "negative index" select is never taken and the column holds w itself; both halves of the bounds test
  0 <= w <= 9487 are the bit 1, and so is their and-reduction over the unit axis; the select therefore takes the gather,
  not the NaN splat. The gather reads rows and steps as batch axes and, on the vocabulary axis, the start index clamped
  into [0, 9487], which is w; the slice of steps 1..19 moves step t to step t + 1. Hence the log-probability at (b, t) is
  the logit x[b, t + 1, w]. The result is then the closing arithmetic applied to the sum over (b, t) of that logit
  times the mask, which is the total of the shared mathematics.
-/
import proofs.«426047_j57990648430747_3_alg».proof.Proof.Gen.ReferenceIdeal
import proofs.«426047_j57990648430747_3_alg».proof.Proof.RefTerm
import Idealize.ShloMosaic.Lib.ValueIdx
import Idealize.ShloMosaic.Lib.Pipeline.Value
import Idealize.ShloMosaic.Lib.IdealHost
import Idealize.ShloMosaic.Lib.StableHlo.Predicate
import Idealize.ShloMosaic.PureOps.Reduce
import Idealize.ShloMosaic.PureOps.Ideal.Laws

noncomputable section

open scoped BigOperators

namespace Cert.ReferenceIdeal.RefValue

open Idealize.ShloMosaic Idealize.ShloMosaic.ValueIdx Cert.ReferenceIdeal

/-- The extended targets at a step below 18 are the targets. -/
theorem tgt19_lt (tg : IVec S256x18 32) (b : Fin 256) (t : Fin 19) (ht : t.val < 18) :
    Cert.Spec.tgt19 tg (ix2 b t) = tg (ix2 b ⟨t.val, ht⟩) := by
  unfold Cert.Spec.tgt19
  refine concatenate_pair_apply_left (1 : Fin 2) tg _ _ (ix2 b t) rfl (ix2 b ⟨t.val, ht⟩) ?_
  intro a
  match a with
  | ⟨0, _⟩ => rfl
  | ⟨1, _⟩ => rfl

/-- The extended targets at step 18 are the zero word. -/
theorem tgt19_last (tg : IVec S256x18 32) (b : Fin 256) (t : Fin 19) (ht : ¬ t.val < 18) :
    Cert.Spec.tgt19 tg (ix2 b t) = 0#32 := by
  unfold Cert.Spec.tgt19
  refine (concatenate_pair_apply_right (s₂ := Cert.Spec.S256x1) (1 : Fin 2) tg _ _ (ix2 b t) rfl rfl (ix2 b (0 : Fin 1)) ?_ ?_).trans ?_
  · intro a ha
    match a with
    | ⟨0, _⟩ => rfl
    | ⟨1, _⟩ => exact absurd rfl ha
  · show 0 + 18 = t.val
    have := t.isLt
    omega
  · rfl

/-- Under the range hypothesis every extended target, read signed, is a vocabulary position. -/
theorem tgt19_range (tg : IVec S256x18 32) (hin : Cert.Spec.InRange tg) (b : Fin 256) (t : Fin 19) :
    0 ≤ (Cert.Spec.tgt19 tg (ix2 b t)).toInt ∧ (Cert.Spec.tgt19 tg (ix2 b t)).toInt < 9488 := by
  by_cases ht : t.val < 18
  · rw [tgt19_lt tg b t ht]; exact hin _
  · rw [tgt19_last tg b t ht]; decide

/-- A word that read signed lies in [0, 9488) reads the same unsigned. -/
theorem toNat_of_range {w : BitVec 32} (h0 : 0 ≤ w.toInt) (h1 : w.toInt < 9488) :
    w.toNat < 9488 ∧ w.toInt.toNat = w.toNat := by
  have e := BitVec.toInt_eq_toNat_cond w
  have := w.isLt
  omega

open Idealize.ShloMosaic.StableHlo.Predicate in
/-- Such a word is not below zero. -/
theorem slt_zero_of_range {w : BitVec 32} (hw : w.toNat < 9488) : IntOp.cmpi .slt w 0#32 = 0#1 := by
  refine eq_zero_of_ne_one fun h => ?_
  have := (slt_iff_toNat (a := w) (b := 0#32) (by omega) (by decide)).1 h
  exact absurd this (by simp)

open Idealize.ShloMosaic.StableHlo.Predicate in
/-- Such a word is at least zero. -/
theorem sge_zero_of_range {w : BitVec 32} (hw : w.toNat < 9488) : IntOp.cmpi .sge w 0#32 = 1#1 :=
  (sge_iff_toNat (a := w) (b := 0#32) (by omega) (by decide)).2 (by simp)

open Idealize.ShloMosaic.StableHlo.Predicate in
/-- Such a word is at most 9487. -/
theorem sle_max_of_range {w : BitVec 32} (hw : w.toNat < 9488) : IntOp.cmpi .sle w 9487#32 = 1#1 :=
  (sle_iff_toNat (a := w) (b := 9487#32) (by omega) (by decide)).2 (by
    show w.toNat ≤ 9487
    omega)

/-- The column of extended targets read at an index: the entry of its row and step. -/
theorem bcast_col_apply (h : S256x19.BroadcastsInDim S256x19x1 (![0, 1] : Fin 2 → Fin S256x19x1.rank))
    (v : IVec S256x19 32) (b : Fin 256) (t : Fin 19) (c : Fin 1) :
    broadcastInDim S256x19x1 ![0, 1] h v (ix3 b t c) = v (ix2 b t) := by
  refine broadcastInDim_apply _ h v (ix3 b t c) (ix2 b t) fun a => ?_
  match a with
  | ⟨0, _⟩ => rfl
  | ⟨1, _⟩ => rfl

/-- The index column the gather reads: no target is negative, so none is wrapped. -/
theorem wrapped_apply (tg : IVec S256x18 32) (hin : Cert.Spec.InRange tg) (b : Fin 256) (t : Fin 19) (c d : Fin 1) :
    RefTerm.wrapped tg (ix4 b t c d) = Cert.Spec.tgt19 tg (ix2 b t) := by
  unfold RefTerm.wrapped
  refine (shapeCast_apply _ _ (ix4 b t c d) (ix3 b t 0) ?_).trans ?_
  · rw [Shape.rowMajor_val_three, Shape.rowMajor_val_four]
    show (b.val * 19 + t.val) * 1 + 0 = ((b.val * 19 + t.val) * 1 + c.val) * 1 + d.val
    omega
  · rw [select_apply]
    show Scalar.select (IntOp.cmpi .slt (broadcastInDim S256x19x1 ![0, 1] _ (Cert.Spec.tgt19 tg) (ix3 b t 0)) 0#32) _
      (broadcastInDim S256x19x1 ![0, 1] _ (Cert.Spec.tgt19 tg) (ix3 b t 0)) = _
    rw [bcast_col_apply]
    obtain ⟨h0, h1⟩ := tgt19_range tg hin b t
    rw [slt_zero_of_range (toNat_of_range h0 h1).1, select_zero]

/-- An and-reduction, from the bit 1, of an array whose every entry is 1 is 1. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_fold]
  show (Finset.univ.filter fun i => h.drop i = j).fold IntOp.andi 1#1 x = 1#1
  induction (Finset.univ.filter fun i => h.drop i = j) using Finset.cons_induction with
  | empty => rfl
  | cons a S ha ih => rw [Finset.fold_cons, ih, hx a]; rfl

/-- The gather's dimension numbers: batch axes 0 and 1, the collapsed axis 2 the one the start index names. -/
abbrev gatherD : GatherDims S256x19x9488 S256x19x1x1 S256x19x1 :=
  gather_S256x19x9488_S256x19x1x1_S256x19x1_n_2_01_01_2_3_111

/-- The gather along the vocabulary axis at (b, t): rows and steps are batch axes read off the result index, the
    vocabulary coordinate is the start index at (b, t), read signed and clamped into [0, 9487]. -/
theorem gather_apply {α : Type} (x' : S256x19x9488.Idx → α) (W : IVec S256x19x1x1 32) (b : Fin 256) (t : Fin 19)
    (c : Fin 1) :
    Host.gather gatherD x' W (ix3 b t c)
      = x' (ix3 b t ⟨min (W (ix4 b t c 0)).toInt.toNat 9487, by omega⟩) := by
  unfold Host.gather
  congr 1
  funext a
  refine Fin.ext ?_
  match a with
  | ⟨0, _⟩ =>
    show gatherD.start (ix3 b t c) W 0 + gatherD.batchCoord (ix3 b t c) 0 + gatherD.offCoord (ix3 b t c) 0 = b.val
    have hs : gatherD.start (ix3 b t c) W 0 = 0 := rfl
    have hb : gatherD.batchCoord (ix3 b t c) 0 = b.val := rfl
    have ho : gatherD.offCoord (ix3 b t c) 0 = 0 := rfl
    rw [hs, hb, ho]
    omega
  | ⟨1, _⟩ =>
    show gatherD.start (ix3 b t c) W 1 + gatherD.batchCoord (ix3 b t c) 1 + gatherD.offCoord (ix3 b t c) 1 = t.val
    have hs : gatherD.start (ix3 b t c) W 1 = 0 := rfl
    have hb : gatherD.batchCoord (ix3 b t c) 1 = t.val := rfl
    have ho : gatherD.offCoord (ix3 b t c) 1 = 0 := rfl
    rw [hs, hb, ho]
    omega
  | ⟨2, _⟩ =>
    show gatherD.start (ix3 b t c) W 2 + gatherD.batchCoord (ix3 b t c) 2 + gatherD.offCoord (ix3 b t c) 2
      = min (W (ix4 b t c 0)).toInt.toNat 9487
    have hb : gatherD.batchCoord (ix3 b t c) 2 = 0 := rfl
    have ho : gatherD.offCoord (ix3 b t c) 2 = 0 := rfl
    rw [hb, ho]
    simp only [Nat.add_zero]
    unfold GatherDims.start
    rw [dif_pos (show (2 : Fin 3) ∈ gatherD.startIndexMap from List.mem_singleton.mpr rfl)]
    have hsi : gatherD.siIdx (ix3 b t c) ⟨List.idxOf (2 : Fin 3) gatherD.startIndexMap,
        List.idxOf_lt_length_iff.2 (List.mem_singleton.mpr rfl)⟩ = ix4 b t c 0 := by
      funext b'
      refine Fin.ext ?_
      match b' with
      | ⟨0, _⟩ => rfl
      | ⟨1, _⟩ => rfl
      | ⟨2, _⟩ => rfl
      | ⟨3, _⟩ => rfl
    rw [hsi]
    rfl

/-- The slice of steps 1..19 of the logits at (b, t, v) is the logit at step t + 1. -/
theorem slice_apply {α : Type} (x : S256x20x9488.Idx → α) (h : S256x20x9488.Slices ![0, 1, 0] S256x19x9488) (b : Fin 256)
    (t : Fin 19) (v : Fin 9488) :
    extractStridedSlice S256x19x9488 ![0, 1, 0] x h (ix3 b t v) = x (ix3 b t.succ v) := by
  refine extractStridedSlice_apply _ x h (ix3 b t v) (ix3 b t.succ v) fun a => ?_
  match a with
  | ⟨0, _⟩ => show b.val = 0 + b.val; omega
  | ⟨1, _⟩ => show t.val + 1 = 1 + t.val; omega
  | ⟨2, _⟩ => show v.val = 0 + v.val; omega

/-- The bounds test of the gather passes at every index: each index read is in [0, 9487]. -/
theorem bounds_apply (tg : IVec S256x18 32) (hin : Cert.Spec.InRange tg)
    (h0 : S_.BroadcastsInDim S256x19x1x1 (![] : Fin 0 → Fin S256x19x1x1.rank))
    (h1 : S1x1x1x1.BroadcastsInDim S256x19x1x1 (![0, 1, 2, 3] : Fin 4 → Fin S256x19x1x1.rank))
    (h2 : S1.BroadcastsInDim S1x1x1x1 (![3] : Fin 1 → Fin S1x1x1x1.rank)) (i : S256x19x1x1.Idx) :
    andi (cmpi .sge (RefTerm.wrapped tg) (broadcastInDim S256x19x1x1 ![] h0 (constantI S_ 32 0#32)))
      (cmpi .sle (RefTerm.wrapped tg)
        (broadcastInDim S256x19x1x1 ![0, 1, 2, 3] h1 (broadcastInDim S1x1x1x1 ![3] h2 (constantI S1 32 9487#32)))) i
      = 1#1 := by
  obtain ⟨b, t, c, d, rfl⟩ : ∃ (b : Fin 256) (t : Fin 19) (c d : Fin 1), i = ix4 b t c d :=
    ⟨i 0, i 1, i 2, i 3, eq_ix4 i⟩
  show IntOp.andi (IntOp.cmpi .sge (RefTerm.wrapped tg (ix4 b t c d)) 0#32)
    (IntOp.cmpi .sle (RefTerm.wrapped tg (ix4 b t c d)) 9487#32) = 1#1
  rw [wrapped_apply tg hin]
  obtain ⟨hlo, hhi⟩ := tgt19_range tg hin b t
  rw [sge_zero_of_range (toNat_of_range hlo hhi).1, sle_max_of_range (toNat_of_range hlo hhi).1]
  rfl

/-- The reference's log-probability at (b, t): the logit of step t + 1 at the extended target of (b, t). -/
theorem logp_apply (x : FVec Ideal S256x20x9488 .f32) (tg : IVec S256x18 32) (hin : Cert.Spec.InRange tg) (b : Fin 256)
    (t : Fin 19) :
    RefTerm.logp (F := Ideal) x tg (ix2 b t) = Cert.Spec.pick x b t.succ (Cert.Spec.tgt19 tg (ix2 b t)) := by
  obtain ⟨hlo, hhi⟩ := tgt19_range tg hin b t
  obtain ⟨hlt, hnat⟩ := toNat_of_range hlo hhi
  unfold RefTerm.logp
  refine (shapeCast_apply _ _ (ix2 b t) (ix3 b t 0) ?_).trans ?_
  · rw [Shape.rowMajor_val_three, Shape.rowMajor_val_two]
    show (b.val * 19 + t.val) * 1 + 0 = b.val * 19 + t.val
    omega
  · have key := reduce_andi_ones _
      (bounds_apply tg hin Facts₀.bcast_S_S256x19x1x1 Facts₀.bcast_S1x1x1x1_S256x19x1x1_0_1_2_3
        Facts₀.bcast_S1_S1x1x1x1_3)
      Facts₀.reducesTo_S256x19x1x1_S256x19x1_d3 Facts₀.h_S_ (ix3 b t 0)
    rw [select_apply, key, select_one, gather_apply, slice_apply]
    unfold Cert.Spec.pick
    rw [dif_pos hlt]
    refine congrArg x (congrArg (ix3 b t.succ) (Fin.ext ?_))
    show min (RefTerm.wrapped tg (ix4 b t 0 0)).toInt.toNat 9487 = (Cert.Spec.tgt19 tg (ix2 b t)).toNat
    rw [wrapped_apply tg hin]
    omega

/-- The reference's result: the closing arithmetic on the masked sum of the picked logits and the mask's count. -/
theorem result_eq (x : FVec Ideal S256x20x9488 .f32) (tg : IVec S256x18 32) (r r1 : FVec Ideal S1 .f32)
    (hin : Cert.Spec.InRange tg) :
    RefTerm.result (F := Ideal) x tg r r1
      = Cert.Spec.finish (fun _ => Cert.Spec.total x tg) (Cert.Spec.cnt tg) r r1 := by
  unfold RefTerm.result
  congr 1
  funext j
  rw [hostReduceAdd_apply, Ideal.hostReduceAdd_total _ (fun a => a.elim0), constant_apply, Ideal.ofBits_zero_f32,
    zero_add, sum_idx2]
  unfold Cert.Spec.total
  refine Finset.sum_congr rfl fun b _ => Finset.sum_congr rfl fun t _ => ?_
  rw [mulf_apply, logp_apply x tg hin]

end Cert.ReferenceIdeal.RefValue

end
-- ==== Proof.lean ====
/-
  Equivalence over the extended reals of a masked log-probability loss kernel and its jnp reference.

  Both programs compute  -(total / count) * max (reward - reward1) 1,  where count is the number of kept positions of an
  early-stop mask over the targets and total sums, over rows b and steps t < 19, the logit at step t + 1 and vocabulary
  position target(b, t), times the mask. The kernel finds the logit by comparing an iota with the target word, selecting
  the logit or 0 and summing over the vocabulary (which picks the logit when the word names a position, and 0
  otherwise), with a leading zero-mask column standing for step 0, in sixteen row blocks each summed on its own; the
  reference gathers it with take_along_axis. The two agree when every target is a vocabulary position, 0 <= target <
  9488, which the precondition states; outside it the reference indexes out of range. Sums of extended reals commute
  and reassociate freely, a sum that is zero off one position is the value there, and x * 0 = 0 for every extended
  real, so nothing else about the inputs is used.
-/
import proofs.«426047_j57990648430747_3_alg».proof.Defs
import proofs.«426047_j57990648430747_3_alg».proof.Proof.Gen.Kernel
import proofs.«426047_j57990648430747_3_alg».proof.Proof.Gen.Kernel.Frame
import proofs.«426047_j57990648430747_3_alg».proof.Proof.Gen.KernelIdeal
import proofs.«426047_j57990648430747_3_alg».proof.Proof.Gen.KernelIdeal.Frame
import proofs.«426047_j57990648430747_3_alg».proof.Proof.Gen.ReferenceIdeal
import proofs.«426047_j57990648430747_3_alg».proof.Proof.Gen.Pre_finite_inputs
import proofs.«426047_j57990648430747_3_alg».proof.Proof.PreDecode
import proofs.«426047_j57990648430747_3_alg».proof.Proof.KValue
import proofs.«426047_j57990648430747_3_alg».proof.Proof.RefRun
import proofs.«426047_j57990648430747_3_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both runs end at the one function of the arguments: the kernel's by its frame run read as values, the reference's
    by its run and the gather read at an index under the precondition's range fact. -/
theorem algebraic : Cert.algebraic_KernelIdeal_ReferenceIdeal := by
  intro m ρ m' ρ' hpre hagree
  refine ⟨fun c => Cert.Spec.finish (F := Ideal)
      (fun _ => Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Spec.cnt (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.result_eq _ _ _ _ (Cert.PreDecode.inRange_of_pre _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
